-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000x128 : Shape := ⟨2, ![800000, 128]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg5 : FVec F S256x128 .f32) (main_arg6 : FVec F S256 .f32) (main_arg7 : FVec F S256 .f32) (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_v33

def fn {F : FTy → Type} [FloatOps F] (main_arg0 : FVec F S50000x256 .f32) (main_arg1 : FVec F S800000x128 .f32) (main_arg2 : IVec S800000 32) (main_arg3 : FVec F S256x256 .f32) (main_arg4 : FVec F S256 .f32) (main_arg5 : FVec F S256x128 .f32) (main_arg6 : FVec F S256 .f32) (main_arg7 : FVec F S256 .f32) (main_arg8 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S50000x256 : Shape := ⟨2, ![50000, 256]⟩
abbrev S800000x128 : Shape := ⟨2, ![800000, 128]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S1x256 : Shape := ⟨2, ![1, 256]⟩
abbrev S800000x256 : Shape := ⟨2, ![800000, 256]⟩
abbrev S4000x128 : Shape := ⟨2, ![4000, 128]⟩
abbrev S4000x256 : Shape := ⟨2, ![4000, 256]⟩
abbrev S_ : Shape := ⟨0, ![]⟩
abbrev S800000x1 : Shape := ⟨2, ![800000, 1]⟩
abbrev S2000x256 : Shape := ⟨2, ![2000, 256]⟩

abbrev nBuf : Space → Nat
  | .hbm => 34
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S800000x128, .f32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S1x256, .f32⟩
  | .hbm, ⟨10, _⟩ => ⟨S800000x256, .f32⟩
  | .hbm, ⟨11, _⟩ => ⟨S_, .f32⟩
  | .hbm, ⟨12, _⟩ => ⟨S50000x256, .f32⟩
  | .hbm, ⟨13, _⟩ => ⟨S800000x1, .i32⟩
  | .hbm, ⟨14, _⟩ => ⟨S50000x256, .f32⟩
  | .hbm, ⟨15, _⟩ => ⟨S1x256, .f32⟩
  | .hbm, ⟨16, _⟩ => ⟨S50000x256, .f32⟩
  | .hbm, ⟨17, _⟩ => ⟨S1x256, .f32⟩
  | .hbm, ⟨18, _⟩ => ⟨S1x256, .f32⟩
  | .hbm, ⟨19, _⟩ => ⟨S256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S50000x256, .f32⟩
  | .local _ .vmem, ⟨0, _⟩ => ⟨S4000x128, .f32⟩
  | .local _ .vmem, ⟨1, _⟩ => ⟨S4000x128, .f32⟩
  | .local _ .vmem, ⟨2, _⟩ => ⟨S256x128, .f32⟩
  | .local _ .vmem, ⟨3, _⟩ => ⟨S1x256, .f32⟩
  | .local _ .vmem, ⟨4, _⟩ => ⟨S4000x256, .f32⟩
  | .local _ .vmem, ⟨5, _⟩ => ⟨S4000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x256, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S1x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  bcast_S_S50000x256 : S_.BroadcastsInDim S50000x256 (![] : Fin 0 → Fin S50000x256.rank)
  bcast_S800000_S800000x1_0 : S800000.BroadcastsInDim S800000x1 (![0] : Fin 1 → Fin S800000x1.rank)
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  shapeCasts_S2000x256_S2000x256 : S2000x256.ShapeCasts S2000x256
  broadcasts_S1x256_S2000x256 : S1x256.Broadcasts S2000x256
  reduces_S2000x256_S256 : S2000x256.Reduces [0] S256
  shapeCasts_S1x256_S256 : S1x256.ShapeCasts S256
  bcast_S_S256 : S_.BroadcastsInDim S256 (![] : Fin 0 → Fin S256.rank)
  dot_S4000x128_S256x128_S4000x256_1_1_0_0_n_n_wf : DotDims.WF S4000x128 S256x128 S4000x256 [1] [1] [0] [0] [] []
  scatter_S50000x256_S800000x1_S800000x256_1_0_0_1_wf : ScatterDims.WF S50000x256 S800000x1 S800000x256 [1] [0] [0] 1
  dot_S2000x256_S256x256_S2000x256_1_1_0_0_n_n_wf : DotDims.WF S2000x256 S256x256 S2000x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x256.size a ≤ S800000x256.size a
  hwx0_3 : ∀ i : grid0.Coords, EltTy.bits .f32 = 32 ∨ (Rect.block (s := S800000x256) S4000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)

variable [Facts₀]

def dot_S4000x128_S256x128_S4000x256_1_1_0_0_n_n : DotDims S4000x128 S256x128 S4000x256 where
  lhsContracting := [1]
  rhsContracting := [1]
  lhsNonContracting := [0]
  rhsNonContracting := [0]
  lhsBatch := []
  rhsBatch := []
  wf := dot_S4000x128_S256x128_S4000x256_1_1_0_0_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_1_0_0_n_n : DotDims S2000x256 S256x256 S2000x256 where
  lhsContracting := [1]
  rhsContracting := [1]
  lhsNonContracting := [0]
  rhsNonContracting := [0]
  lhsBatch := []
  rhsBatch := []
  wf := dot_S2000x256_S256x256_S2000x256_1_1_0_0_n_n_wf

abbrev win0_0 : Pipeline.Window sig grid0 :=
  Pipeline.Window.ofSpec (Memref.whole main_arg1) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6_0) S2000x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6_1) S1x256.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6_2) S1x256.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v6_0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x256 : Shape := ⟨2, ![50000, 256]⟩
abbrev S800000x128 : Shape := ⟨2, ![800000, 128]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S800000x256 : Shape := ⟨2, ![800000, 256]⟩
abbrev S1x256 : Shape := ⟨2, ![1, 256]⟩
abbrev S_ : Shape := ⟨0, ![]⟩
abbrev S800000x1 : Shape := ⟨2, ![800000, 1]⟩

abbrev nBuf : Space → Nat
  | .hbm => 55
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000x128, .f32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S800000x256, .f32⟩
  | .hbm, ⟨10, _⟩ => ⟨S1x256, .f32⟩
  | .hbm, ⟨11, _⟩ => ⟨S800000x256, .f32⟩
  | .hbm, ⟨12, _⟩ => ⟨S800000x256, .f32⟩
  | .hbm, ⟨13, _⟩ => ⟨S_, .f32⟩
  | .hbm, ⟨14, _⟩ => ⟨S50000x256, .f32⟩
  | .hbm, ⟨15, _⟩ => ⟨S800000x1, .i32⟩
  | .hbm, ⟨16, _⟩ => ⟨S50000x256, .f32⟩
  | .hbm, ⟨17, _⟩ => ⟨S50000x256, .f32⟩
  | .hbm, ⟨18, _⟩ => ⟨S50000x256, .f32⟩
  | .hbm, ⟨19, _⟩ => ⟨S1x256, .f32⟩
  | .hbm, ⟨20, _⟩ => ⟨S50000x256, .f32⟩
  | .hbm, ⟨21, _⟩ => ⟨S50000x256, .f32⟩
  | .hbm, ⟨22, _⟩ => ⟨S_, .f32⟩
  | .hbm, ⟨23, _⟩ => ⟨S50000x256, .f32⟩
  | .hbm, ⟨24, _⟩ => ⟨S50000x256, .f32⟩
  | .hbm, ⟨25, _⟩ => ⟨S_, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S1x256, .f32⟩
  | .hbm, ⟨31, _⟩ => ⟨S50000x256, .f32⟩
  | .hbm, ⟨32, _⟩ => ⟨S50000x256, .f32⟩
  | .hbm, ⟨33, _⟩ => ⟨S50000x256, .f32⟩
  | .hbm, ⟨34, _⟩ => ⟨S_, .f32⟩
  | .hbm, ⟨35, _⟩ => ⟨S256, .f32⟩
  | .hbm, ⟨36, _⟩ => ⟨S_, .f32⟩
  | .hbm, ⟨37, _⟩ => ⟨S256, .f32⟩
  | .hbm, ⟨38, _⟩ => ⟨S256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S_, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S1x256, .f32⟩
  | .hbm, ⟨47, _⟩ => ⟨S50000x256, .f32⟩
  | .hbm, ⟨48, _⟩ => ⟨S50000x256, .f32⟩
  | .hbm, ⟨49, _⟩ => ⟨S1x256, .f32⟩
  | .hbm, ⟨50, _⟩ => ⟨S50000x256, .f32⟩
  | .hbm, ⟨51, _⟩ => ⟨S50000x256, .f32⟩
  | .hbm, ⟨52, _⟩ => ⟨S1x256, .f32⟩
  | .hbm, ⟨53, _⟩ => ⟨S50000x256, .f32⟩
  | .hbm, ⟨54, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_cst : Ref sig .tc := ⟨.hbm, 22, rfl⟩
abbrev main_call0_v0 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S50000x256 : S_.BroadcastsInDim S50000x256 (![] : Fin 0 → Fin S50000x256.rank)
  bcast_S800000_S800000x1_0 : S800000.BroadcastsInDim S800000x1 (![0] : Fin 1 → Fin S800000x1.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  dot_S800000x128_S256x128_S800000x256_1_1_0_0_n_n_wf : DotDims.WF S800000x128 S256x128 S800000x256 [1] [1] [0] [0] [] []
  scatter_S50000x256_S800000x1_S800000x256_1_0_0_1_wf : ScatterDims.WF S50000x256 S800000x1 S800000x256 [1] [0] [0] 1
  dot_S50000x256_S256x256_S50000x256_1_1_0_0_n_n_wf : DotDims.WF S50000x256 S256x256 S50000x256 [1] [1] [0] [0] [] []

variable [Facts₀]

def dot_S800000x128_S256x128_S800000x256_1_1_0_0_n_n : DotDims S800000x128 S256x128 S800000x256 where
  lhsContracting := [1]
  rhsContracting := [1]
  lhsNonContracting := [0]
  rhsNonContracting := [0]
  lhsBatch := []
  rhsBatch := []
  wf := dot_S800000x128_S256x128_S800000x256_1_1_0_0_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_1_0_0_n_n : DotDims S50000x256 S256x256 S50000x256 where
  lhsContracting := [1]
  rhsContracting := [1]
  lhsNonContracting := [0]
  rhsNonContracting := [0]
  lhsBatch := []
  rhsBatch := []
  wf := dot_S50000x256_S256x256_S50000x256_1_1_0_0_n_n_wf

class Facts : Prop extends Facts₀ where

variable [Facts]
-- ==== Proof.Spec.lean ====
/-
  The network layer both programs compute, written index by index over the extended reals.

  An edge e carries the row  edge e h = Σ_k w[e,k] · W_bond[h,k] + b_bond[h].  The rows of the edges that point at a
  node are added up into that node's row of `agg` (that sum is formed outside this file and enters here as an array).
  A node n then holds  node n h = max (Σ_k x[n,k] · W_atom[h,k] + agg[n,h] + b_atom[h], 0).
  Over the 50000 nodes each column h has a mean and a variance, and the result is
    out n h = (node n h − mean h) · rsqrt (var h + ε) · γ[h] + β[h].
  The two programs differ in how they form the variance: one as  (Σ_n node²)/N − mean², the other as
  (Σ_n (node − mean)²)/N.  On real numbers these agree; on the extended reals they agree when every entry is real,
  which is what the last section proves.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An array of extended reals with two axes of literal extents. -/
abbrev A2 (a b : ℕ) : Type := FVec Ideal ⟨2, ![a, b]⟩ .f32

/-- A column-indexed family: one extended real per hidden unit. -/
abbrev Row : Type := Fin 256 → EReal

/-- The number of nodes, as the float both programs divide by. -/
abbrev cnt : EReal := Ideal.ofBits .f32 0x47435000#32

/-- The stabiliser added to the variance, as the float both programs add. -/
abbrev eps : EReal := Ideal.ofBits .f32 0x3727C5AC#32

/-- The projected feature row of edge `e`. -/
def edge (w : A2 800000 128) (Wb : A2 256 128) (bb : Row) (e : Fin 800000) (h : Fin 256) : EReal :=
  (∑ k : Fin 128, w (ix2 e k) * Wb (ix2 h k)) + bb h

/-- The activation of node `n`: its own projection, the messages it received, the bias, cut off below at zero. -/
def node (x : A2 50000 256) (Wa : A2 256 256) (ba : Row) (agg : A2 50000 256) (n : Fin 50000) (h : Fin 256) : EReal :=
  max (((∑ k : Fin 256, x (ix2 n k) * Wa (ix2 h k)) + agg (ix2 n h)) + ba h) 0

/-- Column sums of the activations and of their squares. -/
def colSum (H : Fin 50000 → Fin 256 → EReal) (h : Fin 256) : EReal := ∑ n : Fin 50000, H n h
def colSumSq (H : Fin 50000 → Fin 256 → EReal) (h : Fin 256) : EReal := ∑ n : Fin 50000, H n h * H n h

/-- The column mean. -/
def mean (H : Fin 50000 → Fin 256 → EReal) (h : Fin 256) : EReal := Ideal.div (colSum H h) cnt

/-- The variance as mean of squares minus square of the mean. -/
def varOfSquares (H : Fin 50000 → Fin 256 → EReal) (h : Fin 256) : EReal :=
  Ideal.div (colSumSq H h) cnt - mean H h * mean H h

/-- The variance as mean of squared deviations. -/
def varOfDeviations (H : Fin 50000 → Fin 256 → EReal) (h : Fin 256) : EReal :=
  Ideal.div (∑ n : Fin 50000, (H n h - mean H h) * (H n h - mean H h)) cnt

/-- The normalised, scaled and shifted activation. -/
def norm (H : Fin 50000 → Fin 256 → EReal) (mu var : Row) (g b : Row) (n : Fin 50000) (h : Fin 256) : EReal :=
  ((H n h - mu h) * Ideal.rsqrt (var h + eps)) * g h + b h

/-- The messages every node receives: edge rows added into the node row their index word names (rows whose word names
    no node are dropped), on top of the array `z`. -/
def agg (d : ScatterDims ⟨2, ![50000, 256]⟩ ⟨2, ![800000, 1]⟩ ⟨2, ![800000, 256]⟩) (z : A2 50000 256)
    (idx : IVec ⟨2, ![800000, 1]⟩ 32) (E : Fin 800000 → Fin 256 → EReal) : A2 50000 256 :=
  Host.scatterAdd d z idx (fun j => E (j 0) (j 1))

/-- The result with the variance formed from the squares. -/
def outOfSquares (H : Fin 50000 → Fin 256 → EReal) (g b : Row) (n : Fin 50000) (h : Fin 256) : EReal :=
  norm H (mean H) (varOfSquares H) g b n h

/-- The result with the variance formed from the deviations. -/
def outOfDeviations (H : Fin 50000 → Fin 256 → EReal) (g b : Row) (n : Fin 50000) (h : Fin 256) : EReal :=
  norm H (mean H) (varOfDeviations H) g b n h

end Cert.Spec

end
-- ==== Proof.LibDenseT.lean ====
/-
  A matrix product with the right operand given row by row, read at an entry.

  For dimension numbers that contract the left operand's axis 1 with the right operand's axis 1 and have no batch axis,
  entry (p, q) of an [M × K] by [N × K] product is the sum over k of left (p, k) times right (q, k): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDenseT

open Idealize.ShloMosaic Idealize.ShloMosaic.ValueIdx

variable {M K N : ℕ} (d : DotDims ⟨2, ![M, K]⟩ ⟨2, ![N, K]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's column is the contraction index. -/
theorem rhs_col (hrc : d.rhsContracting = [1]) (j : (⟨2, ![M, N]⟩ : Shape).Idx) (k : d.contr.Idx) :
    (d.rhsIdx j k 1).val = (k ⟨0, by rw [d.rank_contr, ← d.length_contracting, hrc]; exact Nat.one_pos⟩).val :=
  d.rhsIdx_val_of_single hrc j k

/-- The right operand's row is the result's column. -/
theorem rhs_row (hln : d.lhsNonContracting = [0]) (hrn : d.rhsNonContracting = [0]) (hlb : d.lhsBatch = []) (hrb : d.rhsBatch = [])
    (j : (⟨2, ![M, N]⟩ : Shape).Idx) (k : d.contr.Idx) : (d.rhsIdx j k 0).val = (j 1).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (q, k). -/
theorem sum_contr (hlc : d.lhsContracting = [1]) (hrc : d.rhsContracting = [1]) (hln : d.lhsNonContracting = [0])
    (hrn : d.rhsNonContracting = [0]) (hlb : d.lhsBatch = []) (hrb : d.rhsBatch = [])
    (x : (⟨2, ![M, K]⟩ : Shape).Idx → EReal) (w : (⟨2, ![N, K]⟩ : Shape).Idx → EReal) (p : Fin M) (q : Fin N) :
    ∑ k : d.contr.Idx, x (d.lhsIdx (ix2 p q) k) * w (d.rhsIdx (ix2 p q) k) = ∑ kk : Fin K, x (ix2 p kk) * w (ix2 q kk) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 q kk := by
    funext a; apply Fin.ext
    match a with
    | ⟨0, _⟩ => exact rhs_row d hln hrn hlb hrb _ _
    | ⟨1, _⟩ => exact (rhs_col d hrc _ _).trans hk
  rw [el, er]

/-- The vector unit's product into a zero accumulator, read at (p, q). -/
theorem matmul_zero_apply {φ₁ φ₂ : FTy} (prec : Option ContractPrecision)
    (hlc : d.lhsContracting = [1]) (hrc : d.rhsContracting = [1]) (hln : d.lhsNonContracting = [0])
    (hrn : d.rhsNonContracting = [0]) (hlb : d.lhsBatch = []) (hrb : d.rhsBatch = [])
    (x : FVec Ideal ⟨2, ![M, K]⟩ φ₁) (w : FVec Ideal ⟨2, ![N, K]⟩ φ₂) (p : Fin M) (q : Fin N) :
    FloatOps.matmul d prec x w (constant ⟨2, ![M, N]⟩ .f32 0x00000000#32) (ix2 p q) = ∑ kk : Fin K, x (ix2 p kk) * w (ix2 q kk) := by
  rw [Ideal.matmul_constant_zero_apply]
  exact sum_contr d hlc hrc hln hrn hlb hrb x w p q

/-- The host's general dot, read at (p, q). -/
theorem dotGeneral_apply {φ₁ φ₂ : FTy} (prec : Option ContractPrecision) (sched : HostSchedule)
    (hlc : d.lhsContracting = [1]) (hrc : d.rhsContracting = [1]) (hln : d.lhsNonContracting = [0])
    (hrn : d.rhsNonContracting = [0]) (hlb : d.lhsBatch = []) (hrb : d.rhsBatch = [])
    (x : FVec Ideal ⟨2, ![M, K]⟩ φ₁) (w : FVec Ideal ⟨2, ![N, K]⟩ φ₂) (p : Fin M) (q : Fin N) :
    FloatOps.dotGeneral d prec sched x w (ix2 p q) = ∑ kk : Fin K, x (ix2 p kk) * w (ix2 q kk) := by
  rw [Ideal.dotGeneral_apply]
  exact sum_contr d hlc hrc hln hrn hlb hrb x w p q

end Cert.LibDenseT

end
-- ==== Proof.Region0.lean ====
import proofs.«175477_j41162966565588_1_alg».proof.Proof.Gen.KernelIdeal.Frame
import proofs.«175477_j41162966565588_1_alg».proof.Proof.Spec
import proofs.«175477_j41162966565588_1_alg».proof.Proof.LibDenseT
import Idealize.ShloMosaic.Lib.Pipeline.Value
import Idealize.ShloMosaic.Lib.ValueLayout
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-buffer access, as the constant function. -/
theorem zero_offsets : (![0, 0] : Fin 2 → Nat) = fun _ => 0 := funext fun a => by fin_cases a <;> rfl

/-- The body's result at row p, column q of a block: the p-th edge row against the q-th weight row, plus the bias. -/
theorem payload_apply (x0 : Vec Ideal S4000x128 .f32) (x1 : Vec Ideal S256x128 .f32) (x2 : Vec Ideal S1x256 .f32)
    (p : Fin 4000) (q : Fin 256) :
    k0_pay1 x0 x1 x2 (ix2 p q) = (∑ k : Fin 128, x0 (ix2 p k) * x1 (ix2 q k)) + x2 (ix2 (0 : Fin 1) q) := by
  unfold k0_pay1
  refine congrArg₂ (· + ·) ?_ ?_
  · exact Cert.LibDenseT.matmul_zero_apply dot_S4000x128_S256x128_S4000x256_1_1_0_0_n_n none rfl rfl rfl rfl rfl rfl _ _ p q
  · refine (broadcastTo_1b_ab_apply _ _ p q).trans ?_
    rw [shapeCast_self]

/-- Every edge's projected row, as one array over the entry contents. -/
def edgeArr (c : Dev nD) : Spec.A2 800000 256 := fun i =>
  Spec.edge (V c main_arg1) (V c main_arg5) (fun h' => (V c main_v0 : Spec.A2 1 256) (ix2 (0 : Fin 1) h')) (i 0) (i 1)

/-- The index maps over the grid: at point t the edge block and the result block are block t along the rows, and the
    weights and the bias are the one block of their arrays. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The edge window's block at point t is rows 4000·t … 4000·t + 3999 of the edge features. -/
theorem edge_block_apply (c : Dev nD) (t : Fin cfg0.N) (p : Fin 4000) (k : Fin 128) (e : Fin 800000)
    (he : e.val = t.val * 4000 + p.val) :
    (iblk0 V c 0 t : Vec Ideal S4000x128 .f32) (ix2 p k) = (V c main_arg1 : Spec.A2 800000 128) (ix2 e k) := by
  obtain ⟨e0, e1, -⟩ := block_indices t
  show V c main_arg1 (((cfg0.win 0).blk t).view.emb (ix2 p k)) = V c main_arg1 (ix2 e k)
  refine congrArg (V c main_arg1) (funext fun a => Fin.ext ?_)
  match a with
  | ⟨0, _⟩ => show win0_0.index t (0 : Fin 2) * 4000 + 1 * p.val = e.val; omega
  | ⟨1, _⟩ => show win0_0.index t (1 : Fin 2) * 128 + 1 * k.val = k.val; omega

/-- The weight window's block at every point is the whole weight array. -/
theorem weight_block_apply (c : Dev nD) (t : Fin cfg0.N) (q : Fin 256) (k : Fin 128) :
    (iblk0 V c 1 t : Vec Ideal S256x128 .f32) (ix2 q k) = (V c main_arg5 : Spec.A2 256 128) (ix2 q k) := by
  obtain ⟨-, -, e2, e3, -⟩ := block_indices t
  show V c main_arg5 (((cfg0.win 1).blk t).view.emb (ix2 q k)) = V c main_arg5 (ix2 q k)
  refine congrArg (V c main_arg5) (funext fun a => Fin.ext ?_)
  match a with
  | ⟨0, _⟩ => show win0_1.index t (0 : Fin 2) * 256 + 1 * q.val = q.val; omega
  | ⟨1, _⟩ => show win0_1.index t (1 : Fin 2) * 128 + 1 * k.val = k.val; omega

/-- The bias window's block at every point is the whole one-row bias array. -/
theorem bias_block_apply (c : Dev nD) (t : Fin cfg0.N) (u : Fin 1) (q : Fin 256) :
    (iblk0 V c 2 t : Vec Ideal S1x256 .f32) (ix2 u q) = (V c main_v0 : Spec.A2 1 256) (ix2 u q) := by
  obtain ⟨-, -, -, -, e4, e5, -⟩ := block_indices t
  show V c main_v0 (((cfg0.win 2).blk t).view.emb (ix2 u q)) = V c main_v0 (ix2 u q)
  refine congrArg (V c main_v0) (funext fun a => Fin.ext ?_)
  match a with
  | ⟨0, _⟩ => show win0_2.index t (0 : Fin 2) * 1 + 1 * u.val = u.val; omega
  | ⟨1, _⟩ => show win0_2.index t (1 : Fin 2) * 256 + 1 * q.val = q.val; omega

/-- What point t writes back is block t of the array of projected rows: entry (p, q) of the block is the projected
    row of edge 4000·t + p at column q, which depends on that edge's row, on row q of the weights and on the bias. -/
theorem flushed_eq (c : Dev nD) (t : Fin cfg0.N) :
    (dat0 V c).flushed 3 t = ((cfg0.win 3).blk t).view.read (Elt Ideal) (edgeArr V c) := by
  show (cfg0.win 3).cut (grid0.coords t) ((dat0 V c).after 3 t) = _
  rw [after0_3]
  unfold out0_3
  rw [View.canon_unit_zero zero_offsets]
  simp only [View.ld_unit_zero (S := S4000x128) zero_offsets, View.ld_unit_zero (S := S256x128) zero_offsets,
    View.ld_unit_zero (S := S1x256) zero_offsets]
  funext j
  obtain ⟨p, q, rfl⟩ : ∃ (p : Fin 4000) (q : Fin 256), j = ix2 p q := ⟨j 0, j 1, eq_ix2 j⟩
  have ht : t.val < 200 := lt_of_lt_of_eq t.isLt N_0
  have hp : p.val < 4000 := p.isLt
  obtain ⟨-, -, -, -, -, -, e6, e7⟩ := block_indices t
  have hemb : ((cfg0.win 3).blk t).view.emb (ix2 p q)
      = (ix2 (⟨t.val * 4000 + p.val, by omega⟩ : Fin 800000) q : S800000x256.Idx) := by
    funext a; apply Fin.ext
    match a with
    | ⟨0, _⟩ => show win0_3.index t (0 : Fin 2) * 4000 + 1 * p.val = t.val * 4000 + p.val; omega
    | ⟨1, _⟩ => show win0_3.index t (1 : Fin 2) * 256 + 1 * q.val = q.val; omega
  show k0_pay1 (iblk0 V c 0 t) (iblk0 V c 1 t) (iblk0 V c 2 t) (ix2 p q)
    = edgeArr V c (((cfg0.win 3).blk t).view.emb (ix2 p q))
  refine (payload_apply (iblk0 V c 0 t) (iblk0 V c 1 t) (iblk0 V c 2 t) p q).trans ?_
  refine Eq.trans ?_ (congrArg (edgeArr V c) hemb).symm
  refine congrArg₂ (· + ·) (Finset.sum_congr rfl fun k _ => congrArg₂ (· * ·) ?_ ?_) ?_
  · exact edge_block_apply V c t p k _ rfl
  · exact weight_block_apply V c t q k
  · exact bias_block_apply V c t 0 q

/-- An index of the result array is in point t's block iff each coordinate is in the block's range on its axis. -/
theorem mem_blk (t : Fin cfg0.N) (i : S800000x256.Idx) :
    i ∈ ((cfg0.win 3).blk t).view.set ↔ ∀ a : Fin 2, win0_3.index t a * S4000x256.size a ≤ (i a).val
      ∧ (i a).val < win0_3.index t a * S4000x256.size a + S4000x256.size a := by
  show i ∈ ((View.whole main_v1).slice (win0_3.rect t)).set ↔ _
  rw [View.set_slice_whole, Rect.mem_set_unit]
  exact Iff.rfl

/-- Every entry of the result array is written back by some point: row e by point e / 4000. -/
theorem covered (i : S800000x256.Idx) :
    ∃ t : Fin cfg0.N, (cfg0.win 3).flush t = true ∧ i ∈ ((cfg0.win 3).blk t).view.set := by
  have hi0 : (i 0).val < 800000 := (i 0).isLt
  have hi1 : (i 1).val < 256 := (i 1).isLt
  have hN : (i 0).val / 4000 < cfg0.N := by rw [show cfg0.N = 200 from N_0]; omega
  obtain ⟨-, -, -, -, -, -, e6, e7⟩ := block_indices ⟨(i 0).val / 4000, hN⟩
  refine ⟨⟨(i 0).val / 4000, hN⟩, flush0_3 _, ?_⟩
  rw [mem_blk]
  intro a
  match a with
  | ⟨0, _⟩ =>
    show win0_3.index ⟨(i 0).val / 4000, hN⟩ (0 : Fin 2) * 4000 ≤ (i 0).val
      ∧ (i 0).val < win0_3.index ⟨(i 0).val / 4000, hN⟩ (0 : Fin 2) * 4000 + 4000
    rw [e6]; show (i 0).val / 4000 * 4000 ≤ (i 0).val ∧ (i 0).val < (i 0).val / 4000 * 4000 + 4000; omega
  | ⟨1, _⟩ =>
    show win0_3.index ⟨(i 0).val / 4000, hN⟩ (1 : Fin 2) * 256 ≤ (i 1).val
      ∧ (i 1).val < win0_3.index ⟨(i 0).val / 4000, hN⟩ (1 : Fin 2) * 256 + 256
    rw [e7]; omega

/-- After the first launch the edge array holds every edge's projected row. -/
theorem edge_array (c : Dev nD) (e : Fin 800000) (h : Fin 256) :
    ((dat0 (F := Ideal) V c).arrAt 3 cfg0.N : Spec.A2 800000 256) (ix2 e h)
      = Spec.edge (V c main_arg1) (V c main_arg5) (fun h' => (V c main_v0 : Spec.A2 1 256) (ix2 (0 : Fin 1) h')) e h := by
  rw [(dat0 V c).arrAt_eq_of_cover 3 (edgeArr V c) (fun t _ => flushed_eq V c t) covered]
  rfl

end Cert.KernelIdeal.Region0

end
-- ==== Proof.Region1Relu.lean ====
import proofs.«175477_j41162966565588_1_alg».proof.Proof.Gen.KernelIdeal.Frame
import proofs.«175477_j41162966565588_1_alg».proof.Proof.Spec
import proofs.«175477_j41162966565588_1_alg».proof.Proof.LibDenseT
import Idealize.ShloMosaic.Lib.Pipeline.Value
import Idealize.ShloMosaic.Lib.ValueLayout
import Idealize.ShloMosaic.Lib.Tactic

set_option maxRecDepth 16384

noncomputable section

namespace Cert.KernelIdeal.Region1Relu

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, as a constant function. -/
theorem hz : (![0, 0] : Fin 2 → Nat) = fun _ => 0 := funext fun a => by match a with | ⟨0, _⟩ => rfl | ⟨1, _⟩ => rfl

/-- At the first point the activation block is the one covering store's payload: the activation of the node block, the
    projection matrix, the message block and the bias row, each read whole. -/
theorem out_A (c : Dev nD) (i : grid1.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S1x256 .f32) (h4 : a4.IsWhole) (a5 : Memref sig .tc .vmem S2000x256 .f32) (h5 : a5.IsWhole) (a6 : Memref sig .tc .vmem S1x256 .f32) (h6 : a6.IsWhole) (a7 : Memref sig .tc .vmem S1x256 .f32) (h7 : a7.IsWhole) (hc : cond1_0 i)
    (x0 : Vec Ideal S2000x256 .f32) (x1 : Vec Ideal S2000x256 .f32) (x2 : Vec Ideal S256x256 .f32) (x3 : Vec Ideal S1x256 .f32) :
    out1_A_4 c i a1 h1 a2 h2 a3 h3 a4 h4 a5 h5 a6 h6 a7 h7 hc x0 x1 x2 x3 = k1_pay3 x0 x2 x1 x3 := by
  unfold out1_A_4
  rw [View.read_writes_eq_canon _ _ _ (cover1_A_4 c i a1 h1 a2 h2 a3 h3 a4 h4 a5 h5 a6 h6 a7 h7 hc x0 x1 x2 x3)]
  unfold kernelRun1_A
  dsimp only
  sl_unfold_words
  rw [View.canon_unit_zero hz]
  simp only [View.readAt_eq_ld, h1.read_unread, h2.read_unread, h3.read_unread, h4.read_unread,
    View.ld_unit_zero (S := S2000x256) hz, View.ld_unit_zero (S := S256x256) hz, View.ld_unit_zero (S := S1x256) hz]

/-- At every later point the activation block is the same payload; the two running column sums do not enter it. -/
theorem out_B (c : Dev nD) (i : grid1.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S1x256 .f32) (h4 : a4.IsWhole) (a5 : Memref sig .tc .vmem S2000x256 .f32) (h5 : a5.IsWhole) (a6 : Memref sig .tc .vmem S1x256 .f32) (h6 : a6.IsWhole) (a7 : Memref sig .tc .vmem S1x256 .f32) (h7 : a7.IsWhole) (hc : ¬cond1_0 i)
    (x0 : Vec Ideal S2000x256 .f32) (x1 : Vec Ideal S2000x256 .f32) (x2 : Vec Ideal S256x256 .f32) (x3 : Vec Ideal S1x256 .f32) (xo5 : Vec Ideal S1x256 .f32) (xo6 : Vec Ideal S1x256 .f32) :
    out1_B_4 c i a1 h1 a2 h2 a3 h3 a4 h4 a5 h5 a6 h6 a7 h7 hc x0 x1 x2 x3 xo5 xo6 = k1_pay3 x0 x2 x1 x3 := by
  unfold out1_B_4
  rw [View.read_writes_eq_canon _ _ _ (cover1_B_4 c i a1 h1 a2 h2 a3 h3 a4 h4 a5 h5 a6 h6 a7 h7 hc x0 x1 x2 x3 xo5 xo6)]
  unfold kernelRun1_B
  dsimp only
  sl_unfold_words
  rw [View.canon_unit_zero hz]
  simp only [View.readAt_eq_ld, h1.read_unread, h2.read_unread, h3.read_unread, h4.read_unread,
    View.ld_unit_zero (S := S2000x256) hz, View.ld_unit_zero (S := S256x256) hz, View.ld_unit_zero (S := S1x256) hz]

/-- Entry (p, q) of the payload: the node row p against row q of the projection matrix, plus the message entry, plus
    the bias of column q, cut off below at zero. The rounding to the narrower format is the identity on extended reals;
    the product into a zero accumulator is the bare sum; the bias row is the same on every row of the block. -/
theorem pay3_apply (x : FVec Ideal S2000x256 .f32) (w : FVec Ideal S256x256 .f32) (g : FVec Ideal S2000x256 .f32)
    (b : FVec Ideal S1x256 .f32) (p : Fin 2000) (q : Fin 256) :
    k1_pay3 x w g b (ix2 p q)
      = max (((∑ k : Fin 256, x (ix2 p k) * w (ix2 q k)) + g (ix2 p q)) + b (ix2 (0 : Fin 1) q)) 0 := by
  unfold k1_pay3
  refine (maximumf_apply _ _ (ix2 p q)).trans ?_
  refine congrArg₂ max ?_ ?_
  · refine (addf_apply _ _ (ix2 p q)).trans ?_
    refine congrArg₂ (· + ·) ?_ ?_
    · refine (addf_apply _ _ (ix2 p q)).trans ?_
      refine congrArg₂ (· + ·) ?_ ?_
      · exact LibDenseT.matmul_zero_apply dot_S2000x256_S256x256_S2000x256_1_1_0_0_n_n none rfl rfl rfl rfl rfl rfl
          (truncf .bf16 x bitsLt_bf16_f32) (truncf .bf16 w bitsLt_bf16_f32) p q
      · rw [shapeCast_self]
    · rw [shapeCast_self]
      exact broadcastTo_1b_ab_apply b broadcasts_S1x256_S2000x256 p q
  · exact (broadcast_apply _ _).trans Ideal.ofBits_zero_f32

/-- The printed index maps over the 25 points: the node block, the message block and the activation block are block
    t of their arrays along the rows; the projection matrix and the bias row are their whole arrays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of block t is row 2000 t + p of the array. -/
def rowOf (t : Fin cfg1.N) (p : Fin 2000) : Fin 50000 :=
  ⟨t.val * 2000 + p.val, by have hN : cfg1.N = 25 := N_1; have ht := t.isLt; have hp := p.isLt; omega⟩

/-- The node block at point t, entry (p, k), is the node array's entry (2000 t + p, k). -/
theorem xblk_apply (c : Dev nD) (t : Fin cfg1.N) (p : Fin 2000) (k : Fin 256) :
    (iblk1 V c 0 t : FVec Ideal S2000x256 .f32) (ix2 p k) = (V c main_arg0 : Spec.A2 50000 256) (ix2 (rowOf t p) k) := by
  obtain ⟨e0, e1, -⟩ := idx_facts t
  unfold iblk1
  show (V c main_arg0 : Spec.A2 50000 256) (((cfg1.win 0).blk t).view.emb (ix2 p k)) = (V c main_arg0 : Spec.A2 50000 256) (ix2 (rowOf t p) k)
  refine congrArg (V c main_arg0 : Spec.A2 50000 256) ?_
  funext a; apply Fin.ext
  match a with
  | ⟨0, _⟩ => show win1_0.index t (0 : Fin 2) * 2000 + 1 * p.val = t.val * 2000 + p.val; rw [e0]; omega
  | ⟨1, _⟩ => show win1_0.index t (1 : Fin 2) * 256 + 1 * k.val = k.val; rw [e1]; omega

/-- The message block at point t, entry (p, q), is the message array's entry (2000 t + p, q). -/
theorem gblk_apply (c : Dev nD) (t : Fin cfg1.N) (p : Fin 2000) (q : Fin 256) :
    (iblk1 V c 1 t : FVec Ideal S2000x256 .f32) (ix2 p q) = (V c main_v4 : Spec.A2 50000 256) (ix2 (rowOf t p) q) := by
  obtain ⟨-, -, e0, e1, -⟩ := idx_facts t
  unfold iblk1
  show (V c main_v4 : Spec.A2 50000 256) (((cfg1.win 1).blk t).view.emb (ix2 p q)) = (V c main_v4 : Spec.A2 50000 256) (ix2 (rowOf t p) q)
  refine congrArg (V c main_v4 : Spec.A2 50000 256) ?_
  funext a; apply Fin.ext
  match a with
  | ⟨0, _⟩ => show win1_1.index t (0 : Fin 2) * 2000 + 1 * p.val = t.val * 2000 + p.val; rw [e0]; omega
  | ⟨1, _⟩ => show win1_1.index t (1 : Fin 2) * 256 + 1 * q.val = q.val; rw [e1]; omega

/-- The projection matrix's block at every point is the whole matrix. -/
theorem wblk_apply (c : Dev nD) (t : Fin cfg1.N) (q : Fin 256) (k : Fin 256) :
    (iblk1 V c 2 t : FVec Ideal S256x256 .f32) (ix2 q k) = (V c main_arg3 : Spec.A2 256 256) (ix2 q k) := by
  obtain ⟨-, -, -, -, e0, e1, -⟩ := idx_facts t
  unfold iblk1
  show (V c main_arg3 : Spec.A2 256 256) (((cfg1.win 2).blk t).view.emb (ix2 q k)) = (V c main_arg3 : Spec.A2 256 256) (ix2 q k)
  refine congrArg (V c main_arg3 : Spec.A2 256 256) ?_
  funext a; apply Fin.ext
  match a with
  | ⟨0, _⟩ => show win1_2.index t (0 : Fin 2) * 256 + 1 * q.val = q.val; rw [e0]; omega
  | ⟨1, _⟩ => show win1_2.index t (1 : Fin 2) * 256 + 1 * k.val = k.val; rw [e1]; omega

/-- The bias row's block at every point is the whole row. -/
theorem bblk_apply (c : Dev nD) (t : Fin cfg1.N) (q : Fin 256) :
    (iblk1 V c 3 t : FVec Ideal S1x256 .f32) (ix2 (0 : Fin 1) q) = (V c main_v5 : Spec.A2 1 256) (ix2 (0 : Fin 1) q) := by
  obtain ⟨-, -, -, -, -, -, e0, e1, -⟩ := idx_facts t
  unfold iblk1
  show (V c main_v5 : Spec.A2 1 256) (((cfg1.win 3).blk t).view.emb (ix2 (0 : Fin 1) q)) = (V c main_v5 : Spec.A2 1 256) (ix2 (0 : Fin 1) q)
  refine congrArg (V c main_v5 : Spec.A2 1 256) ?_
  funext a; apply Fin.ext
  match a with
  | ⟨0, _⟩ => show win1_3.index t (0 : Fin 2) * 1 + 1 * (0 : Fin 1).val = (0 : Fin 1).val; rw [e0]; simp
  | ⟨1, _⟩ => show win1_3.index t (1 : Fin 2) * 256 + 1 * q.val = q.val; rw [e1]; omega

/-- What the body leaves in the activation block at point t, in either control case: the payload of the four input
    blocks of that point. -/
theorem after4_eq (c : Dev nD) (t : Fin cfg1.N) :
    (dat1 (F := Ideal) V c).after 4 t = k1_pay3 (iblk1 V c 0 t) (iblk1 V c 2 t) (iblk1 V c 1 t) (iblk1 V c 3 t) := by
  rw [after1_4]
  by_cases h0 : t.val % 25 = 0
  · rw [outsAt1_A V c t h0]
    dsimp only
    exact out_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t)
  · rw [outsAt1_B V c t h0]
    dsimp only
    exact out_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t)
      (outsAt1 V c (t.val - 1) (Nat.lt_of_le_of_lt (Nat.sub_le _ _) t.isLt)).2.1 (outsAt1 V c (t.val - 1) (Nat.lt_of_le_of_lt (Nat.sub_le _ _) t.isLt)).2.2

/-- Entry (p, q) of the activation block at point t is the activation of node 2000 t + p in column q. -/
theorem after4_apply (c : Dev nD) (t : Fin cfg1.N) (p : Fin 2000) (q : Fin 256) :
    ((dat1 (F := Ideal) V c).after 4 t : FVec Ideal S2000x256 .f32) (ix2 p q)
      = Spec.node (V c main_arg0) (V c main_arg3) (fun h' => (V c main_v5 : Spec.A2 1 256) (ix2 (0 : Fin 1) h')) (V c main_v4) (rowOf t p) q := by
  refine (congrFun (after4_eq V c t) (ix2 p q)).trans ?_
  refine (pay3_apply (iblk1 V c 0 t) (iblk1 V c 2 t) (iblk1 V c 1 t) (iblk1 V c 3 t) p q).trans ?_
  unfold Spec.node
  refine congrArg₂ max (congrArg₂ (· + ·) (congrArg₂ (· + ·) (Finset.sum_congr rfl fun k _ => ?_) ?_) ?_) rfl
  · exact congrArg₂ (· * ·) (xblk_apply V c t p k) (wblk_apply V c t q k)
  · exact gblk_apply V c t p q
  · exact bblk_apply V c t q

/-- The activation of every node, as one array: the function the activation array ends holding. -/
def acts (c : Dev nD) : Spec.A2 50000 256 := fun i =>
  Spec.node (V c main_arg0) (V c main_arg3) (fun h' => (V c main_v5 : Spec.A2 1 256) (ix2 (0 : Fin 1) h')) (V c main_v4) (i 0) (i 1)

/-- What point t writes back is block t of that array: rows 2000 t to 2000 t + 1999, every column. -/
theorem flushed_eq (c : Dev nD) (t : Fin cfg1.N) :
    (dat1 (F := Ideal) V c).flushed 4 t = ((cfg1.win 4).blk t).view.read (Elt Ideal) (acts V c) := by
  obtain ⟨-, -, -, -, -, -, -, -, e0, e1⟩ := idx_facts t
  funext j
  have hj0 : (j 0).val < 2000 := (j 0).isLt
  have hj1 : (j 1).val < 256 := (j 1).isLt
  show ((dat1 (F := Ideal) V c).after 4 t : FVec Ideal S2000x256 .f32) ((cfg1.win 4).xinj (grid1.coords t) j)
    = acts V c (((cfg1.win 4).blk t).view.emb j)
  have ej : (cfg1.win 4).xinj (grid1.coords t) j = ix2 (⟨(j 0).val, hj0⟩ : Fin 2000) (⟨(j 1).val, hj1⟩ : Fin 256) :=
    funext fun a => by match a with | ⟨0, _⟩ => rfl | ⟨1, _⟩ => rfl
  refine (congrArg ((dat1 (F := Ideal) V c).after 4 t : FVec Ideal S2000x256 .f32) ej).trans ?_
  refine (after4_apply V c t ⟨(j 0).val, hj0⟩ ⟨(j 1).val, hj1⟩).trans ?_
  have er : (((cfg1.win 4).blk t).view.emb j : (⟨2, ![50000, 256]⟩ : Shape).Idx)
      = ix2 (rowOf t ⟨(j 0).val, hj0⟩) (⟨(j 1).val, hj1⟩ : Fin 256) := by
    funext a; apply Fin.ext
    match a with
    | ⟨0, _⟩ => show win1_4.index t (0 : Fin 2) * 2000 + 1 * (j 0).val = t.val * 2000 + (j 0).val; rw [e0]; omega
    | ⟨1, _⟩ => show win1_4.index t (1 : Fin 2) * 256 + 1 * (j 1).val = (j 1).val; rw [e1]; omega
  exact (congrArg (acts V c) er).symm

/-- After the second launch the activation array holds every node's activation. -/
theorem relu_array (c : Dev nD) (n : Fin 50000) (h : Fin 256) :
    ((dat1 (F := Ideal) V c).arrAt 4 cfg1.N : Spec.A2 50000 256) (ix2 n h)
      = Spec.node (V c main_arg0) (V c main_arg3) (fun h' => (V c main_v5 : Spec.A2 1 256) (ix2 (0 : Fin 1) h')) (V c main_v4) n h := by
  have hN : cfg1.N = 25 := N_1
  have hn : n.val < 50000 := n.isLt
  have hh : h.val < 256 := h.isLt
  have ht : n.val / 2000 < cfg1.N := by omega
  obtain ⟨-, -, -, -, -, -, -, -, e0, e1⟩ := idx_facts ⟨n.val / 2000, ht⟩
  refine ((dat1 (F := Ideal) V c).arrAt_eq_piecewise 4 (acts V c) (fun t _ => flushed_eq V c t) (ix2 n h)).trans
    (if_pos ⟨⟨n.val / 2000, ht⟩, flush1_4 _, ?_⟩)
  show ix2 n h ∈ ((View.whole main_v6_0).slice (win1_4.rect ⟨n.val / 2000, ht⟩)).set
  rw [View.set_slice_whole, Rect.mem_set_unit]
  intro a
  match a with
  | ⟨0, _⟩ =>
    show win1_4.index ⟨n.val / 2000, ht⟩ (0 : Fin 2) * 2000 ≤ n.val
      ∧ n.val < win1_4.index ⟨n.val / 2000, ht⟩ (0 : Fin 2) * 2000 + 2000
    rw [e0]; show n.val / 2000 * 2000 ≤ n.val ∧ n.val < n.val / 2000 * 2000 + 2000; omega
  | ⟨1, _⟩ =>
    show win1_4.index ⟨n.val / 2000, ht⟩ (1 : Fin 2) * 256 ≤ h.val
      ∧ h.val < win1_4.index ⟨n.val / 2000, ht⟩ (1 : Fin 2) * 256 + 256
    rw [e1]; omega

end Cert.KernelIdeal.Region1Relu

end
-- ==== Proof.Region1Sums.lean ====
import proofs.«175477_j41162966565588_1_alg».proof.Proof.Gen.KernelIdeal.Frame
import proofs.«175477_j41162966565588_1_alg».proof.Proof.Spec
import proofs.«175477_j41162966565588_1_alg».proof.Proof.LibDenseT
import Idealize.ShloMosaic.Lib.Pipeline.Value
import Idealize.ShloMosaic.Lib.ValueLayout
import Idealize.ShloMosaic.Lib.Tactic

set_option maxRecDepth 16384

noncomputable section

namespace Cert.KernelIdeal.Region1Sums

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

/-- The two zero offsets of a whole-buffer access, as the constant function. -/
theorem hz : (![0, 0] : Fin 2 → Nat) = fun _ => 0 := funext fun a => by fin_cases a <;> rfl

/-- A later point leaves in the first accumulator its previous row plus the column sums of the point's activation block. -/
theorem out_B_5 (c : Dev nD) (i : grid1.Coords) (a1 : Memref sig .tc .vmem S2000x256 .f32) (h1 : a1.IsWhole) (a2 : Memref sig .tc .vmem S2000x256 .f32) (h2 : a2.IsWhole)
    (a3 : Memref sig .tc .vmem S256x256 .f32) (h3 : a3.IsWhole) (a4 : Memref sig .tc .vmem S1x256 .f32) (h4 : a4.IsWhole)
    (a5 : Memref sig .tc .vmem S2000x256 .f32) (h5 : a5.IsWhole) (a6 : Memref sig .tc .vmem S1x256 .f32) (h6 : a6.IsWhole)
    (a7 : Memref sig .tc .vmem S1x256 .f32) (h7 : a7.IsWhole) (hc : ¬cond1_0 i)
    (x0 x1 : Vec F S2000x256 .f32) (x2 : Vec F S256x256 .f32) (x3 xo5 xo6 : Vec F S1x256 .f32) :
    out1_B_5 c i a1 h1 a2 h2 a3 h3 a4 h4 a5 h5 a6 h6 a7 h7 hc x0 x1 x2 x3 xo5 xo6 = k1_pay4 x0 x2 x1 x3 xo5 := by
  unfold out1_B_5
  rw [View.read_writes_eq_canon _ _ _ (cover1_B_5 c i a1 h1 a2 h2 a3 h3 a4 h4 a5 h5 a6 h6 a7 h7 hc x0 x1 x2 x3 xo5 xo6)]
  unfold kernelRun1_B
  dsimp only
  sl_unfold_words
  rw [View.canon_unit_zero (S := S1x256) hz]
  simp only [View.readAt_eq_ld, h1.read_unread, h2.read_unread, h3.read_unread, h4.read_unread, h6.read_unread, h7.read_unread,
    View.ld_unit_zero (S := S2000x256) hz, View.ld_unit_zero (S := S256x256) hz, View.ld_unit_zero (S := S1x256) hz]

/-- A later point leaves in the second accumulator its previous row plus the column sums of the squared activation block. -/
theorem out_B_6 (c : Dev nD) (i : grid1.Coords) (a1 : Memref sig .tc .vmem S2000x256 .f32) (h1 : a1.IsWhole) (a2 : Memref sig .tc .vmem S2000x256 .f32) (h2 : a2.IsWhole)
    (a3 : Memref sig .tc .vmem S256x256 .f32) (h3 : a3.IsWhole) (a4 : Memref sig .tc .vmem S1x256 .f32) (h4 : a4.IsWhole)
    (a5 : Memref sig .tc .vmem S2000x256 .f32) (h5 : a5.IsWhole) (a6 : Memref sig .tc .vmem S1x256 .f32) (h6 : a6.IsWhole)
    (a7 : Memref sig .tc .vmem S1x256 .f32) (h7 : a7.IsWhole) (hc : ¬cond1_0 i)
    (x0 x1 : Vec F S2000x256 .f32) (x2 : Vec F S256x256 .f32) (x3 xo5 xo6 : Vec F S1x256 .f32) :
    out1_B_6 c i a1 h1 a2 h2 a3 h3 a4 h4 a5 h5 a6 h6 a7 h7 hc x0 x1 x2 x3 xo5 xo6 = k1_pay5 x0 x2 x1 x3 xo6 := by
  unfold out1_B_6
  rw [View.read_writes_eq_canon _ _ _ (cover1_B_6 c i a1 h1 a2 h2 a3 h3 a4 h4 a5 h5 a6 h6 a7 h7 hc x0 x1 x2 x3 xo5 xo6)]
  unfold kernelRun1_B
  dsimp only
  sl_unfold_words
  rw [View.canon_unit_zero (S := S1x256) hz]
  simp only [View.readAt_eq_ld, h1.read_unread, h2.read_unread, h3.read_unread, h4.read_unread, h6.read_unread, h7.read_unread,
    View.ld_unit_zero (S := S2000x256) hz, View.ld_unit_zero (S := S256x256) hz, View.ld_unit_zero (S := S1x256) hz]

/-- The first point stores the zero row, reads it back, and leaves it plus the column sums of the point's activation block. -/
theorem out_A_5 (c : Dev nD) (i : grid1.Coords) (a1 : Memref sig .tc .vmem S2000x256 .f32) (h1 : a1.IsWhole) (a2 : Memref sig .tc .vmem S2000x256 .f32) (h2 : a2.IsWhole)
    (a3 : Memref sig .tc .vmem S256x256 .f32) (h3 : a3.IsWhole) (a4 : Memref sig .tc .vmem S1x256 .f32) (h4 : a4.IsWhole)
    (a5 : Memref sig .tc .vmem S2000x256 .f32) (h5 : a5.IsWhole) (a6 : Memref sig .tc .vmem S1x256 .f32) (h6 : a6.IsWhole)
    (a7 : Memref sig .tc .vmem S1x256 .f32) (h7 : a7.IsWhole) (hc : cond1_0 i)
    (x0 x1 : Vec F S2000x256 .f32) (x2 : Vec F S256x256 .f32) (x3 : Vec F S1x256 .f32) :
    out1_A_5 c i a1 h1 a2 h2 a3 h3 a4 h4 a5 h5 a6 h6 a7 h7 hc x0 x1 x2 x3 = k1_pay4 x0 x2 x1 x3 (k1_pay1 (F := F)) := by
  unfold out1_A_5
  rw [View.read_writes_eq_canon _ _ _ (cover1_A_5 c i a1 h1 a2 h2 a3 h3 a4 h4 a5 h5 a6 h6 a7 h7 hc x0 x1 x2 x3)]
  unfold kernelRun1_A
  dsimp only
  sl_unfold_words
  rw [View.canon_cons_unit_zero (S := S1x256) hz]
  simp only [View.readAt_eq_ld, h1.read_unread, h2.read_unread, h3.read_unread, h4.read_unread,
    View.ld_unit_zero (S := S2000x256) hz, View.ld_unit_zero (S := S256x256) hz, View.ld_unit_zero (S := S1x256) hz,
    View.readCov_unit_zero (S := S1x256) _ hz]

/-- The first point likewise for the second accumulator, with the squared block. -/
theorem out_A_6 (c : Dev nD) (i : grid1.Coords) (a1 : Memref sig .tc .vmem S2000x256 .f32) (h1 : a1.IsWhole) (a2 : Memref sig .tc .vmem S2000x256 .f32) (h2 : a2.IsWhole)
    (a3 : Memref sig .tc .vmem S256x256 .f32) (h3 : a3.IsWhole) (a4 : Memref sig .tc .vmem S1x256 .f32) (h4 : a4.IsWhole)
    (a5 : Memref sig .tc .vmem S2000x256 .f32) (h5 : a5.IsWhole) (a6 : Memref sig .tc .vmem S1x256 .f32) (h6 : a6.IsWhole)
    (a7 : Memref sig .tc .vmem S1x256 .f32) (h7 : a7.IsWhole) (hc : cond1_0 i)
    (x0 x1 : Vec F S2000x256 .f32) (x2 : Vec F S256x256 .f32) (x3 : Vec F S1x256 .f32) :
    out1_A_6 c i a1 h1 a2 h2 a3 h3 a4 h4 a5 h5 a6 h6 a7 h7 hc x0 x1 x2 x3 = k1_pay5 x0 x2 x1 x3 (k1_pay2 (F := F)) := by
  unfold out1_A_6
  rw [View.read_writes_eq_canon _ _ _ (cover1_A_6 c i a1 h1 a2 h2 a3 h3 a4 h4 a5 h5 a6 h6 a7 h7 hc x0 x1 x2 x3)]
  unfold kernelRun1_A
  dsimp only
  sl_unfold_words
  rw [View.canon_cons_unit_zero (S := S1x256) hz]
  simp only [View.readAt_eq_ld, h1.read_unread, h2.read_unread, h3.read_unread, h4.read_unread,
    View.ld_unit_zero (S := S2000x256) hz, View.ld_unit_zero (S := S256x256) hz, View.ld_unit_zero (S := S1x256) hz,
    View.readCov_unit_zero (S := S1x256) _ hz]

/-! ## The payloads read at an entry, over the extended reals -/

/-- Entry (r, h) of a point's activation block: the row's projection, its received messages and the bias, cut off below
    at zero. -/
theorem pay3_apply (x a : Vec Ideal S2000x256 .f32) (W : Vec Ideal S256x256 .f32) (b : Vec Ideal S1x256 .f32)
    (r : Fin 2000) (h : Fin 256) :
    k1_pay3 (F := Ideal) x W a b (ix2 r h)
      = max (((∑ k : Fin 256, x (ix2 r k) * W (ix2 h k)) + a (ix2 r h)) + b (ix2 (0 : Fin 1) h)) 0 := by
  unfold k1_pay3
  refine (maximumf_apply _ _ (ix2 r h)).trans ?_
  refine congrArg₂ max ?_ Ideal.ofBits_zero_f32
  refine (addf_apply _ _ (ix2 r h)).trans ?_
  refine congrArg₂ (· + ·) ?_ ?_
  · refine (addf_apply _ _ (ix2 r h)).trans ?_
    refine congrArg₂ (· + ·) ?_ ?_
    · exact LibDenseT.matmul_zero_apply dot_S2000x256_S256x256_S2000x256_1_1_0_0_n_n none rfl rfl rfl rfl rfl rfl _ _ r h
    · exact congrFun (shapeCast_self a _) (ix2 r h)
  · refine (broadcastTo_1b_ab_apply _ _ r h).trans ?_
    exact congrFun (shapeCast_self b _) (ix2 (0 : Fin 1) h)

/-- A sum over the rows of a 2000 × 256 block, read at column h. -/
theorem colsum_apply (src : FVec Ideal S2000x256 .f32) (hr : S2000x256.Reduces [0] S256) (hφ : FKind.Formats .f32)
    (hacc : (0x00000000#32 : BitVec FTy.f32.bits) = FKind.add.neutral .f32 hφ) (h : Fin 256) :
    multiReduction (F := Ideal) .add [0] S256 src 0x00000000#32 hr hφ hacc (ix1 h) = ∑ r : Fin 2000, src (ix2 r h) := by
  refine (Ideal.multiReduction_add_single src _ hr hφ hacc (ix1 h)).trans ?_
  refine Finset.sum_congr rfl fun r _ => congrArg src ?_
  funext a
  match a with
  | ⟨0, _⟩ => rfl
  | ⟨1, _⟩ => rfl

/-- Column h of the first accumulator's update: what it held plus the block's column sum. -/
theorem pay4_apply (x a : Vec Ideal S2000x256 .f32) (W : Vec Ideal S256x256 .f32) (b acc : Vec Ideal S1x256 .f32) (h : Fin 256) :
    k1_pay4 (F := Ideal) x W a b acc (ix2 (0 : Fin 1) h)
      = acc (ix2 (0 : Fin 1) h) + ∑ r : Fin 2000, k1_pay3 (F := Ideal) x W a b (ix2 r h) := by
  unfold k1_pay4
  refine (addf_apply _ _ (ix2 (0 : Fin 1) h)).trans ?_
  refine congrArg₂ (· + ·) (congrFun (shapeCast_self acc _) (ix2 (0 : Fin 1) h)) ?_
  refine (shapeCast_a_1a_apply _ _ (0 : Fin 1) h).trans ?_
  exact colsum_apply _ _ _ _ h

/-- Column h of the second accumulator's update: what it held plus the column sum of the block's squares. -/
theorem pay5_apply (x a : Vec Ideal S2000x256 .f32) (W : Vec Ideal S256x256 .f32) (b acc : Vec Ideal S1x256 .f32) (h : Fin 256) :
    k1_pay5 (F := Ideal) x W a b acc (ix2 (0 : Fin 1) h)
      = acc (ix2 (0 : Fin 1) h)
        + ∑ r : Fin 2000, k1_pay3 (F := Ideal) x W a b (ix2 r h) * k1_pay3 (F := Ideal) x W a b (ix2 r h) := by
  unfold k1_pay5
  refine (addf_apply _ _ (ix2 (0 : Fin 1) h)).trans ?_
  refine congrArg₂ (· + ·) (congrFun (shapeCast_self acc _) (ix2 (0 : Fin 1) h)) ?_
  refine (shapeCast_a_1a_apply _ _ (0 : Fin 1) h).trans ?_
  exact colsum_apply _ _ _ _ h

/-- The reset rows are zero. -/
theorem pay1_apply (h : Fin 256) : k1_pay1 (F := Ideal) (ix2 (0 : Fin 1) h) = 0 := by
  unfold k1_pay1
  exact Ideal.ofBits_zero_f32

theorem pay2_apply (h : Fin 256) : k1_pay2 (F := Ideal) (ix2 (0 : Fin 1) h) = 0 := by
  unfold k1_pay2
  exact Ideal.ofBits_zero_f32

/-! ## The blocks the second launch reads, as rows of its arrays -/

variable (V : (c : Dev nD) → (b : Ref sig .tc) → Buf (Elt Ideal) ((c : Thread nD τ).loc b))

/-- The node features, the received messages, the node weights and the node bias row as the launch finds them. -/
abbrev xarr (c : Dev nD) : Spec.A2 50000 256 := V c main_arg0
abbrev aarr (c : Dev nD) : Spec.A2 50000 256 := V c main_v4
abbrev warr (c : Dev nD) : Spec.A2 256 256 := V c main_arg3
abbrev barr (c : Dev nD) : Spec.A2 1 256 := V c main_v5

/-- Their blocks at point t: 2000 rows of the features and of the messages, the whole weights, the whole bias row. -/
abbrev xblk (c : Dev nD) (t : Fin cfg1.N) : Vec Ideal S2000x256 .f32 := iblk1 V c 0 t
abbrev ablk (c : Dev nD) (t : Fin cfg1.N) : Vec Ideal S2000x256 .f32 := iblk1 V c 1 t
abbrev wblk (c : Dev nD) (t : Fin cfg1.N) : Vec Ideal S256x256 .f32 := iblk1 V c 2 t
abbrev bblk (c : Dev nD) (t : Fin cfg1.N) : Vec Ideal S1x256 .f32 := iblk1 V c 3 t

/-- The block index of the two row-blocked inputs is the point; the other two inputs' never moves. -/
theorem idx_facts : ∀ t : Fin cfg1.N,
    (win1_0.index t 0 = t.val ∧ win1_0.index t 1 = 0) ∧ (win1_1.index t 0 = t.val ∧ win1_1.index t 1 = 0)
    ∧ (win1_2.index t 0 = 0 ∧ win1_2.index t 1 = 0) ∧ (win1_3.index t 0 = 0 ∧ win1_3.index t 1 = 0) :=
  (by decide +kernel : ∀ t : Fin grid1.N,
    (win1_0.index t 0 = t.val ∧ win1_0.index t 1 = 0) ∧ (win1_1.index t 0 = t.val ∧ win1_1.index t 1 = 0)
    ∧ (win1_2.index t 0 = 0 ∧ win1_2.index t 1 = 0) ∧ (win1_3.index t 0 = 0 ∧ win1_3.index t 1 = 0))

/-- Row r of the feature block of point t is row 2000 t + r of the features. -/
theorem xblk_apply (c : Dev nD) (t : Fin cfg1.N) (r : Fin 2000) (k : Fin 256) (n : Fin 50000) (hn : n.val = 2000 * t.val + r.val) :
    xblk V c t (ix2 r k) = xarr V c (ix2 n k) := by
  have hi := (idx_facts t).1
  show iblk1 V c 0 t (ix2 r k) = _
  unfold iblk1
  rw [View.read_apply]
  show (V c main_arg0 : Spec.A2 50000 256) _ = (V c main_arg0 : Spec.A2 50000 256) (ix2 n k)
  congr 1
  funext a
  apply Fin.ext
  match a with
  | ⟨0, _⟩ => show win1_0.index t 0 * 2000 + 1 * r.val = n.val; rw [hi.1, hn]; omega
  | ⟨1, _⟩ => show win1_0.index t 1 * 256 + 1 * k.val = k.val; rw [hi.2]; omega

/-- Row r of the message block of point t is row 2000 t + r of the messages. -/
theorem ablk_apply (c : Dev nD) (t : Fin cfg1.N) (r : Fin 2000) (k : Fin 256) (n : Fin 50000) (hn : n.val = 2000 * t.val + r.val) :
    ablk V c t (ix2 r k) = aarr V c (ix2 n k) := by
  have hi := (idx_facts t).2.1
  show iblk1 V c 1 t (ix2 r k) = _
  unfold iblk1
  rw [View.read_apply]
  show (V c main_v4 : Spec.A2 50000 256) _ = (V c main_v4 : Spec.A2 50000 256) (ix2 n k)
  congr 1
  funext a
  apply Fin.ext
  match a with
  | ⟨0, _⟩ => show win1_1.index t 0 * 2000 + 1 * r.val = n.val; rw [hi.1, hn]; omega
  | ⟨1, _⟩ => show win1_1.index t 1 * 256 + 1 * k.val = k.val; rw [hi.2]; omega

/-- The weight block of every point is the whole weight array. -/
theorem wblk_apply (c : Dev nD) (t : Fin cfg1.N) (h : Fin 256) (k : Fin 256) :
    wblk V c t (ix2 h k) = warr V c (ix2 h k) := by
  have hi := (idx_facts t).2.2.1
  show iblk1 V c 2 t (ix2 h k) = _
  unfold iblk1
  rw [View.read_apply]
  show (V c main_arg3 : Spec.A2 256 256) _ = (V c main_arg3 : Spec.A2 256 256) (ix2 h k)
  congr 1
  funext a
  apply Fin.ext
  match a with
  | ⟨0, _⟩ => show win1_2.index t 0 * 256 + 1 * h.val = h.val; rw [hi.1]; omega
  | ⟨1, _⟩ => show win1_2.index t 1 * 256 + 1 * k.val = k.val; rw [hi.2]; omega

/-- The bias block of every point is the whole bias row. -/
theorem bblk_apply (c : Dev nD) (t : Fin cfg1.N) (h : Fin 256) :
    bblk V c t (ix2 (0 : Fin 1) h) = barr V c (ix2 (0 : Fin 1) h) := by
  have hi := (idx_facts t).2.2.2
  show iblk1 V c 3 t (ix2 (0 : Fin 1) h) = _
  unfold iblk1
  rw [View.read_apply]
  show (V c main_v5 : Spec.A2 1 256) _ = (V c main_v5 : Spec.A2 1 256) (ix2 (0 : Fin 1) h)
  congr 1
  funext a
  apply Fin.ext
  match a with
  | ⟨0, _⟩ => show win1_3.index t 0 * 1 + 1 * (0 : Fin 1).val = (0 : Fin 1).val; rw [hi.1]; rfl
  | ⟨1, _⟩ => show win1_3.index t 1 * 256 + 1 * h.val = h.val; rw [hi.2]; omega

/-- The specification's activations over the arrays the launch finds. -/
abbrev H (c : Dev nD) : Fin 50000 → Fin 256 → EReal :=
  Spec.node (V c main_arg0) (V c main_arg3) (fun h' => (V c main_v5 : Spec.A2 1 256) (ix2 (0 : Fin 1) h')) (V c main_v4)

/-- Entry (r, h) of the activation block of point t is the specification's activation of node 2000 t + r at h: the
    block rows are that node's feature and message rows, the weights and the bias are whole. -/
theorem act_apply (c : Dev nD) (t : Fin cfg1.N) (r : Fin 2000) (h : Fin 256) (n : Fin 50000) (hn : n.val = 2000 * t.val + r.val) :
    k1_pay3 (F := Ideal) (xblk V c t) (wblk V c t) (ablk V c t) (bblk V c t) (ix2 r h) = H V c n h := by
  refine (pay3_apply (xblk V c t) (ablk V c t) (wblk V c t) (bblk V c t) r h).trans ?_
  show max (((∑ k : Fin 256, xblk V c t (ix2 r k) * wblk V c t (ix2 h k)) + ablk V c t (ix2 r h)) + bblk V c t (ix2 (0 : Fin 1) h)) 0
     = max (((∑ k : Fin 256, xarr V c (ix2 n k) * warr V c (ix2 h k)) + aarr V c (ix2 n h)) + barr V c (ix2 (0 : Fin 1) h)) 0
  rw [ablk_apply V c t r h n hn, bblk_apply V c t h]
  refine congrArg (fun s => max ((s + aarr V c (ix2 n h)) + barr V c (ix2 (0 : Fin 1) h)) 0) (Finset.sum_congr rfl fun k _ => ?_)
  rw [xblk_apply V c t r k n hn, wblk_apply V c t h k]

/-! ## The 50000 rows as 25 blocks of 2000 -/

/-- Row r of block t, as a row of the arrays. -/
def row (t : Fin 25) (r : Fin 2000) : Fin 50000 :=
  ⟨2000 * t.val + r.val, by have := t.isLt; have := r.isLt; omega⟩

/-- Every row lies in exactly one block: the quotient and the remainder by 2000. -/
def rowEquiv : Fin 25 × Fin 2000 ≃ Fin 50000 where
  toFun p := row p.1 p.2
  invFun n := (⟨n.val / 2000, by have := n.isLt; omega⟩, ⟨n.val % 2000, Nat.mod_lt _ (by decide)⟩)
  left_inv p := by
    obtain ⟨⟨t, ht⟩, ⟨r, hr⟩⟩ := p
    refine Prod.ext (Fin.ext ?_) (Fin.ext ?_)
    · show (2000 * t + r) / 2000 = t; omega
    · show (2000 * t + r) % 2000 = r; omega
  right_inv n := Fin.ext (by show 2000 * (n.val / 2000) + n.val % 2000 = n.val; omega)

/-- A sum over all rows is the sum over the blocks of the sums over each block's rows: addition of extended reals is
    commutative and associative. -/
theorem sum_rows (f : Fin 50000 → EReal) : ∑ n : Fin 50000, f n = ∑ t : Fin 25, ∑ r : Fin 2000, f (row t r) := by
  rw [← Equiv.sum_comp rowEquiv f, Fintype.sum_prod_type]
  rfl

/-- The sum of f over the rows of block s; zero past the last block. -/
def blockSum (f : Fin 50000 → EReal) (s : ℕ) : EReal :=
  if hs : s < 25 then ∑ r : Fin 2000, f (row ⟨s, hs⟩ r) else 0

/-- The first 25 block sums add up to the sum over all rows. -/
theorem sum_blockSum (f : Fin 50000 → EReal) : ∑ s ∈ Finset.range 25, blockSum f s = ∑ n : Fin 50000, f n := by
  rw [Finset.sum_range, sum_rows]
  refine Finset.sum_congr rfl fun t _ => ?_
  unfold blockSum
  rw [dif_pos t.isLt]

/-! ## The accumulators after each point -/

/-- The first accumulator after point n: the reset row plus the first block's column sums, then each later block's
    column sums added to what the point before left. -/
def chain5 (c : Dev nD) : (n : ℕ) → n < cfg1.N → Vec Ideal S1x256 .f32
  | 0, h => k1_pay4 (F := Ideal) (xblk V c ⟨0, h⟩) (wblk V c ⟨0, h⟩) (ablk V c ⟨0, h⟩) (bblk V c ⟨0, h⟩) (k1_pay1 (F := Ideal))
  | n + 1, h => k1_pay4 (F := Ideal) (xblk V c ⟨n + 1, h⟩) (wblk V c ⟨n + 1, h⟩) (ablk V c ⟨n + 1, h⟩) (bblk V c ⟨n + 1, h⟩)
      (chain5 c n (Nat.lt_of_succ_lt h))

/-- The second accumulator after point n, likewise with the squares. -/
def chain6 (c : Dev nD) : (n : ℕ) → n < cfg1.N → Vec Ideal S1x256 .f32
  | 0, h => k1_pay5 (F := Ideal) (xblk V c ⟨0, h⟩) (wblk V c ⟨0, h⟩) (ablk V c ⟨0, h⟩) (bblk V c ⟨0, h⟩) (k1_pay2 (F := Ideal))
  | n + 1, h => k1_pay5 (F := Ideal) (xblk V c ⟨n + 1, h⟩) (wblk V c ⟨n + 1, h⟩) (ablk V c ⟨n + 1, h⟩) (bblk V c ⟨n + 1, h⟩)
      (chain6 c n (Nat.lt_of_succ_lt h))

/-- What the run leaves in the first accumulator's buffer after point n is that chain: the first point is the reset
    case, every later point the carrying case over what the point before left. -/
theorem outs5_eq (c : Dev nD) : ∀ (n : ℕ) (h : n < cfg1.N), (outsAt1 V c n h).2.1 = chain5 V c n h
  | 0, h => by
    have h0 : (⟨0, h⟩ : Fin cfg1.N).val % 25 = 0 := rfl
    rw [outsAt1_A V c ⟨0, h⟩ h0]
    dsimp only
    exact out_A_5 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) ((hcond1_0 ⟨0, h⟩).mpr h0) (iblk1 V c 0 ⟨0, h⟩) (iblk1 V c 1 ⟨0, h⟩) (iblk1 V c 2 ⟨0, h⟩) (iblk1 V c 3 ⟨0, h⟩)
  | n + 1, h => by
    have hN : cfg1.N = 25 := N_1
    have hB : ¬(⟨n + 1, h⟩ : Fin cfg1.N).val % 25 = 0 := by dsimp only; omega
    rw [outsAt1_B V c ⟨n + 1, h⟩ hB]
    dsimp only
    refine (out_B_5 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (fun hh => hB ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩)
      (outsAt1 V c n (Nat.lt_of_succ_lt h)).2.1 (outsAt1 V c n (Nat.lt_of_succ_lt h)).2.2).trans ?_
    show k1_pay4 (F := Ideal) (xblk V c ⟨n + 1, h⟩) (wblk V c ⟨n + 1, h⟩) (ablk V c ⟨n + 1, h⟩) (bblk V c ⟨n + 1, h⟩)
        (outsAt1 V c n (Nat.lt_of_succ_lt h)).2.1 = _
    rw [outs5_eq c n (Nat.lt_of_succ_lt h)]
    rfl

/-- What the run leaves in the second accumulator's buffer after point n is its chain. -/
theorem outs6_eq (c : Dev nD) : ∀ (n : ℕ) (h : n < cfg1.N), (outsAt1 V c n h).2.2 = chain6 V c n h
  | 0, h => by
    have h0 : (⟨0, h⟩ : Fin cfg1.N).val % 25 = 0 := rfl
    rw [outsAt1_A V c ⟨0, h⟩ h0]
    dsimp only
    exact out_A_6 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) ((hcond1_0 ⟨0, h⟩).mpr h0) (iblk1 V c 0 ⟨0, h⟩) (iblk1 V c 1 ⟨0, h⟩) (iblk1 V c 2 ⟨0, h⟩) (iblk1 V c 3 ⟨0, h⟩)
  | n + 1, h => by
    have hN : cfg1.N = 25 := N_1
    have hB : ¬(⟨n + 1, h⟩ : Fin cfg1.N).val % 25 = 0 := by dsimp only; omega
    rw [outsAt1_B V c ⟨n + 1, h⟩ hB]
    dsimp only
    refine (out_B_6 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (fun hh => hB ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩)
      (outsAt1 V c n (Nat.lt_of_succ_lt h)).2.1 (outsAt1 V c n (Nat.lt_of_succ_lt h)).2.2).trans ?_
    show k1_pay5 (F := Ideal) (xblk V c ⟨n + 1, h⟩) (wblk V c ⟨n + 1, h⟩) (ablk V c ⟨n + 1, h⟩) (bblk V c ⟨n + 1, h⟩)
        (outsAt1 V c n (Nat.lt_of_succ_lt h)).2.2 = _
    rw [outs6_eq c n (Nat.lt_of_succ_lt h)]
    rfl

/-- Column h of the first accumulator after point n: the activations of the rows of blocks 0 … n, added up block by
    block (the reset row contributes zero). -/
theorem chain5_apply (c : Dev nD) (h : Fin 256) : ∀ (n : ℕ) (hn : n < cfg1.N),
    chain5 V c n hn (ix2 (0 : Fin 1) h) = ∑ s ∈ Finset.range (n + 1), blockSum (fun m => H V c m h) s
  | 0, hn => by
    show k1_pay4 (F := Ideal) (xblk V c ⟨0, hn⟩) (wblk V c ⟨0, hn⟩) (ablk V c ⟨0, hn⟩) (bblk V c ⟨0, hn⟩) (k1_pay1 (F := Ideal))
      (ix2 (0 : Fin 1) h) = _
    refine (pay4_apply (xblk V c ⟨0, hn⟩) (ablk V c ⟨0, hn⟩) (wblk V c ⟨0, hn⟩) (bblk V c ⟨0, hn⟩) (k1_pay1 (F := Ideal)) h).trans ?_
    rw [pay1_apply, zero_add, Finset.sum_range_one]
    unfold blockSum
    rw [dif_pos (by decide : 0 < 25)]
    exact Finset.sum_congr rfl fun r _ => act_apply V c ⟨0, hn⟩ r h (row ⟨0, by decide⟩ r) rfl
  | n + 1, hn => by
    have hN : cfg1.N = 25 := N_1
    have hlt : n + 1 < 25 := by omega
    show k1_pay4 (F := Ideal) (xblk V c ⟨n + 1, hn⟩) (wblk V c ⟨n + 1, hn⟩) (ablk V c ⟨n + 1, hn⟩) (bblk V c ⟨n + 1, hn⟩)
      (chain5 V c n (Nat.lt_of_succ_lt hn)) (ix2 (0 : Fin 1) h) = _
    refine (pay4_apply (xblk V c ⟨n + 1, hn⟩) (ablk V c ⟨n + 1, hn⟩) (wblk V c ⟨n + 1, hn⟩) (bblk V c ⟨n + 1, hn⟩)
      (chain5 V c n (Nat.lt_of_succ_lt hn)) h).trans ?_
    rw [chain5_apply c h n (Nat.lt_of_succ_lt hn), Finset.sum_range_succ _ (n + 1)]
    refine congrArg (fun z => (∑ s ∈ Finset.range (n + 1), blockSum (fun m => H V c m h) s) + z) ?_
    unfold blockSum
    rw [dif_pos hlt]
    exact Finset.sum_congr rfl fun r _ => act_apply V c ⟨n + 1, hn⟩ r h (row ⟨n + 1, hlt⟩ r) rfl

/-- Column h of the second accumulator after point n: the squared activations of the rows of blocks 0 … n. -/
theorem chain6_apply (c : Dev nD) (h : Fin 256) : ∀ (n : ℕ) (hn : n < cfg1.N),
    chain6 V c n hn (ix2 (0 : Fin 1) h) = ∑ s ∈ Finset.range (n + 1), blockSum (fun m => H V c m h * H V c m h) s
  | 0, hn => by
    show k1_pay5 (F := Ideal) (xblk V c ⟨0, hn⟩) (wblk V c ⟨0, hn⟩) (ablk V c ⟨0, hn⟩) (bblk V c ⟨0, hn⟩) (k1_pay2 (F := Ideal))
      (ix2 (0 : Fin 1) h) = _
    refine (pay5_apply (xblk V c ⟨0, hn⟩) (ablk V c ⟨0, hn⟩) (wblk V c ⟨0, hn⟩) (bblk V c ⟨0, hn⟩) (k1_pay2 (F := Ideal)) h).trans ?_
    rw [pay2_apply, zero_add, Finset.sum_range_one]
    unfold blockSum
    rw [dif_pos (by decide : 0 < 25)]
    refine Finset.sum_congr rfl fun r _ => ?_
    rw [act_apply V c ⟨0, hn⟩ r h (row ⟨0, by decide⟩ r) rfl]
  | n + 1, hn => by
    have hN : cfg1.N = 25 := N_1
    have hlt : n + 1 < 25 := by omega
    show k1_pay5 (F := Ideal) (xblk V c ⟨n + 1, hn⟩) (wblk V c ⟨n + 1, hn⟩) (ablk V c ⟨n + 1, hn⟩) (bblk V c ⟨n + 1, hn⟩)
      (chain6 V c n (Nat.lt_of_succ_lt hn)) (ix2 (0 : Fin 1) h) = _
    refine (pay5_apply (xblk V c ⟨n + 1, hn⟩) (ablk V c ⟨n + 1, hn⟩) (wblk V c ⟨n + 1, hn⟩) (bblk V c ⟨n + 1, hn⟩)
      (chain6 V c n (Nat.lt_of_succ_lt hn)) h).trans ?_
    rw [chain6_apply c h n (Nat.lt_of_succ_lt hn), Finset.sum_range_succ _ (n + 1)]
    refine congrArg (fun z => (∑ s ∈ Finset.range (n + 1), blockSum (fun m => H V c m h * H V c m h) s) + z) ?_
    unfold blockSum
    rw [dif_pos hlt]
    refine Finset.sum_congr rfl fun r _ => ?_
    rw [act_apply V c ⟨n + 1, hn⟩ r h (row ⟨n + 1, hlt⟩ r) rfl]

/-! ## The one write-back, after the last point -/

/-- The last point is a point of the grid. -/
theorem last_lt : 24 < cfg1.N := by rw [show cfg1.N = 25 from N_1]; decide

/-- The rows the two accumulators hold after the last point, as contents of their arrays. -/
abbrev result5 (c : Dev nD) : Buf (Elt Ideal) ((c : Thread nD τ).loc main_v6_1) := chain5 V c 24 last_lt
abbrev result6 (c : Dev nD) : Buf (Elt Ideal) ((c : Thread nD τ).loc main_v6_2) := chain6 V c 24 last_lt

/-- The one write-back of accumulator window 5, at the last point, writes its chain's last row: its block is the whole
    [1, 256] array read through zero offsets. -/
theorem flushed5_eq (c : Dev nD) (t : Fin cfg1.N) (hf : (cfg1.win 5).flush t = true) :
    (dat1 V c).flushed 5 t = ((cfg1.win 5).blk t).view.read (Elt Ideal) (result5 V c) := by
  have hN : cfg1.N = 25 := N_1
  have h24 : t.val = 24 := by have := (flush1_5 t).mp hf; have := t.isLt; omega
  obtain rfl : t = ⟨24, last_lt⟩ := Fin.ext h24
  show (cfg1.win 5).cut (grid1.coords ⟨24, last_lt⟩) ((dat1 V c).after 5 ⟨24, last_lt⟩) = _
  rw [after1_5, outs5_eq]
  have hz' : (fun a => win1_5.index ⟨24, last_lt⟩ a * main_v6_1.ty.shape.size a) = fun _ => 0 :=
    funext fun a => by fin_cases a <;> decide
  exact (Memref.read_access_unit_zero (Elt Ideal) main_v6_1 hz' (fun a => by rw [congrFun hz' a]; simp) (result5 V c)).symm

/-- So after the launch the array of window 5 holds that row: the last point's block covers it. -/
theorem final5 (c : Dev nD) : (dat1 V c).arrAt 5 cfg1.N = result5 V c :=
  (dat1 V c).arrAt_eq_of_cover 5 (result5 V c) (flushed5_eq V c) fun i =>
    ⟨⟨24, last_lt⟩, (flush1_5 ⟨24, last_lt⟩).mpr rfl, by
      show i ∈ ((View.whole main_v6_1).slice (win1_5.rect ⟨24, last_lt⟩)).set
      rw [View.set_slice_whole, Rect.mem_set_unit]
      intro a
      have h0 : (i 0 : Nat) < 1 := (i 0).isLt
      have h1 : (i 1 : Nat) < 256 := (i 1).isLt
      match a with
      | ⟨0, _⟩ =>
        show win1_5.index ⟨24, last_lt⟩ 0 * win1_5.size 0 ≤ (i 0 : Nat)
          ∧ (i 0 : Nat) < win1_5.index ⟨24, last_lt⟩ 0 * win1_5.size 0 + win1_5.xsize (grid1.coords ⟨24, last_lt⟩) 0
        rw [show win1_5.index ⟨24, last_lt⟩ 0 * win1_5.size 0 = 0 from by decide +kernel,
          show win1_5.xsize (grid1.coords ⟨24, last_lt⟩) 0 = 1 from by decide +kernel]
        omega
      | ⟨1, _⟩ =>
        show win1_5.index ⟨24, last_lt⟩ 1 * win1_5.size 1 ≤ (i 1 : Nat)
          ∧ (i 1 : Nat) < win1_5.index ⟨24, last_lt⟩ 1 * win1_5.size 1 + win1_5.xsize (grid1.coords ⟨24, last_lt⟩) 1
        rw [show win1_5.index ⟨24, last_lt⟩ 1 * win1_5.size 1 = 0 from by decide +kernel,
          show win1_5.xsize (grid1.coords ⟨24, last_lt⟩) 1 = 256 from by decide +kernel]
        omega⟩

/-- The one write-back of accumulator window 6, at the last point, writes its chain's last row: its block is the whole
    [1, 256] array read through zero offsets. -/
theorem flushed6_eq (c : Dev nD) (t : Fin cfg1.N) (hf : (cfg1.win 6).flush t = true) :
    (dat1 V c).flushed 6 t = ((cfg1.win 6).blk t).view.read (Elt Ideal) (result6 V c) := by
  have hN : cfg1.N = 25 := N_1
  have h24 : t.val = 24 := by have := (flush1_6 t).mp hf; have := t.isLt; omega
  obtain rfl : t = ⟨24, last_lt⟩ := Fin.ext h24
  show (cfg1.win 6).cut (grid1.coords ⟨24, last_lt⟩) ((dat1 V c).after 6 ⟨24, last_lt⟩) = _
  rw [after1_6, outs6_eq]
  have hz' : (fun a => win1_6.index ⟨24, last_lt⟩ a * main_v6_2.ty.shape.size a) = fun _ => 0 :=
    funext fun a => by fin_cases a <;> decide
  exact (Memref.read_access_unit_zero (Elt Ideal) main_v6_2 hz' (fun a => by rw [congrFun hz' a]; simp) (result6 V c)).symm

/-- So after the launch the array of window 6 holds that row: the last point's block covers it. -/
theorem final6 (c : Dev nD) : (dat1 V c).arrAt 6 cfg1.N = result6 V c :=
  (dat1 V c).arrAt_eq_of_cover 6 (result6 V c) (flushed6_eq V c) fun i =>
    ⟨⟨24, last_lt⟩, (flush1_6 ⟨24, last_lt⟩).mpr rfl, by
      show i ∈ ((View.whole main_v6_2).slice (win1_6.rect ⟨24, last_lt⟩)).set
      rw [View.set_slice_whole, Rect.mem_set_unit]
      intro a
      have h0 : (i 0 : Nat) < 1 := (i 0).isLt
      have h1 : (i 1 : Nat) < 256 := (i 1).isLt
      match a with
      | ⟨0, _⟩ =>
        show win1_6.index ⟨24, last_lt⟩ 0 * win1_6.size 0 ≤ (i 0 : Nat)
          ∧ (i 0 : Nat) < win1_6.index ⟨24, last_lt⟩ 0 * win1_6.size 0 + win1_6.xsize (grid1.coords ⟨24, last_lt⟩) 0
        rw [show win1_6.index ⟨24, last_lt⟩ 0 * win1_6.size 0 = 0 from by decide +kernel,
          show win1_6.xsize (grid1.coords ⟨24, last_lt⟩) 0 = 1 from by decide +kernel]
        omega
      | ⟨1, _⟩ =>
        show win1_6.index ⟨24, last_lt⟩ 1 * win1_6.size 1 ≤ (i 1 : Nat)
          ∧ (i 1 : Nat) < win1_6.index ⟨24, last_lt⟩ 1 * win1_6.size 1 + win1_6.xsize (grid1.coords ⟨24, last_lt⟩) 1
        rw [show win1_6.index ⟨24, last_lt⟩ 1 * win1_6.size 1 = 0 from by decide +kernel,
          show win1_6.xsize (grid1.coords ⟨24, last_lt⟩) 1 = 256 from by decide +kernel]
        omega⟩

/-- After the second launch the first accumulator holds the column sums of the activations. -/
theorem sum_array (c : Dev nD) (h : Fin 256) :
    ((dat1 (F := Ideal) V c).arrAt 5 cfg1.N : Spec.A2 1 256) (ix2 (0 : Fin 1) h)
      = Spec.colSum (Spec.node (V c main_arg0) (V c main_arg3) (fun h' => (V c main_v5 : Spec.A2 1 256) (ix2 (0 : Fin 1) h')) (V c main_v4)) h := by
  rw [final5 V c]
  show chain5 V c 24 last_lt (ix2 (0 : Fin 1) h) = ∑ n : Fin 50000, H V c n h
  rw [chain5_apply V c h 24 last_lt]
  exact sum_blockSum fun m => H V c m h

/-- After the second launch the second accumulator holds the column sums of the squared activations. -/
theorem sumsq_array (c : Dev nD) (h : Fin 256) :
    ((dat1 (F := Ideal) V c).arrAt 6 cfg1.N : Spec.A2 1 256) (ix2 (0 : Fin 1) h)
      = Spec.colSumSq (Spec.node (V c main_arg0) (V c main_arg3) (fun h' => (V c main_v5 : Spec.A2 1 256) (ix2 (0 : Fin 1) h')) (V c main_v4)) h := by
  rw [final6 V c]
  show chain6 V c 24 last_lt (ix2 (0 : Fin 1) h) = ∑ n : Fin 50000, H V c n h * H V c n h
  rw [chain6_apply V c h 24 last_lt]
  exact sum_blockSum fun m => H V c m h * H V c m h

end Cert.KernelIdeal.Region1Sums

end
-- ==== Proof.Region2.lean ====
import proofs.«175477_j41162966565588_1_alg».proof.Proof.Gen.KernelIdeal.Frame
import proofs.«175477_j41162966565588_1_alg».proof.Proof.Spec
import proofs.«175477_j41162966565588_1_alg».proof.Proof.LibDenseT
import Idealize.ShloMosaic.Lib.Pipeline.Value
import Idealize.ShloMosaic.Lib.ValueLayout
import Idealize.ShloMosaic.Lib.Tactic

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a two-axis rectangle, as the constant function. -/
theorem zero_offsets : (![0, 0] : Fin 2 → Nat) = fun _ => 0 := funext fun a => by fin_cases a <;> rfl

/-- The body's result at row `p`, column `q` of its block: the activation there minus the mean of column `q`, times
    the reciprocal square root of that column's variance plus the stabiliser, times the column's scale, plus its
    shift. The four rows are read at their one row. -/
theorem payload_apply (act : Vec Ideal S2000x256 .f32) (var mu gam bet : Vec Ideal S1x256 .f32) (p : Fin 2000) (q : Fin 256) :
    k2_pay1 (F := Ideal) act var mu gam bet (ix2 p q)
      = ((act (ix2 p q) - mu (ix2 (0 : Fin 1) q)) * Ideal.rsqrt (var (ix2 (0 : Fin 1) q) + Spec.eps)) * gam (ix2 (0 : Fin 1) q)
          + bet (ix2 (0 : Fin 1) q) := by
  unfold k2_pay1
  simp only [shapeCast_self]
  rw [addf_apply, mulf_apply, mulf_apply, subf_apply]
  rw [broadcastTo_1b_ab_apply, broadcastTo_1b_ab_apply, broadcastTo_1b_ab_apply, broadcastTo_1b_ab_apply]
  rfl

/-- The body's result at any index of its block, the column read off the index. -/
theorem payload_at (act : Vec Ideal S2000x256 .f32) (var mu gam bet : Vec Ideal S1x256 .f32) (j : S2000x256.Idx) :
    k2_pay1 (F := Ideal) act var mu gam bet j
      = ((act j - mu (ix2 (0 : Fin 1) (j 1))) * Ideal.rsqrt (var (ix2 (0 : Fin 1) (j 1)) + Spec.eps)) * gam (ix2 (0 : Fin 1) (j 1))
          + bet (ix2 (0 : Fin 1) (j 1)) := by
  obtain ⟨p, q, rfl⟩ : ∃ (p : Fin 2000) (q : Fin 256), j = ix2 p q := ⟨j 0, j 1, eq_ix2 j⟩
  exact payload_apply act var mu gam bet p q

/-- The whole result array: at row `i 0`, column `i 1` the normalised, scaled and shifted activation, from the
    activation array and the four one-row arrays as the launch finds them. -/
def result (c : Dev nD) : S50000x256.Idx → EReal := fun i =>
  Spec.norm (fun n' h' => (V c main_v6_0 : Spec.A2 50000 256) (ix2 n' h'))
    (fun h' => (V c main_v15 : Spec.A2 1 256) (ix2 (0 : Fin 1) h'))
    (fun h' => (V c main_v16 : Spec.A2 1 256) (ix2 (0 : Fin 1) h'))
    (fun h' => (V c main_v17 : Spec.A2 1 256) (ix2 (0 : Fin 1) h'))
    (fun h' => (V c main_v18 : Spec.A2 1 256) (ix2 (0 : Fin 1) h')) (i 0) (i 1)

/-- Where the blocks lie, decided over the 25 points: point `t` reads block `t` of the activation rows and writes block
    `t` of the result rows, both at column block 0; each one-row array is read whole at every point. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the whole result array. -/
theorem block_written (c : Dev nD) (t : Fin cfg2.N) :
    (dat2 (F := Ideal) V c).flushed 5 t = ((cfg2.win 5).blk t).view.read (Elt Ideal) (result V c) := by
  show (cfg2.win 5).cut (grid2.coords t) ((dat2 V c).after 5 t) = _
  rw [after2_5]
  unfold out2_5
  rw [View.canon_unit_zero zero_offsets]
  simp only [View.ld_unit_zero (S := S2000x256) zero_offsets, View.ld_unit_zero (S := S1x256) zero_offsets]
  funext j
  show k2_pay1 (F := Ideal) (iblk2 V c 0 t) (iblk2 V c 2 t) (iblk2 V c 1 t) (iblk2 V c 3 t) (iblk2 V c 4 t) j
      = result V c (((cfg2.win 5).blk t).view.emb j)
  refine (payload_at (iblk2 V c 0 t) (iblk2 V c 2 t) (iblk2 V c 1 t) (iblk2 V c 3 t) (iblk2 V c 4 t) j).trans ?_
  obtain ⟨f00, f01, f10, f11, f20, f21, f30, f31, f40, f41, f50, f51⟩ := block_indices t
  -- entry `j` of block `t` is row `2000 t + j 0`, column `j 1` of the result array
  have hrow : ((((cfg2.win 5).blk t).view.emb j) 0).val = t.val * 2000 + (j 0).val := by
    show win2_5.index t (0 : Fin 2) * 2000 + 1 * (j 0).val = _; omega
  have hcol : ((((cfg2.win 5).blk t).view.emb j) 1).val = (j 1).val := by
    show win2_5.index t (1 : Fin 2) * 256 + 1 * (j 1).val = _; omega
  -- the activation block is read at the same row and column
  have e0 : iblk2 V c 0 t j
      = (V c main_v6_0 : Spec.A2 50000 256) (ix2 ((((cfg2.win 5).blk t).view.emb j) 0) ((((cfg2.win 5).blk t).view.emb j) 1)) := by
    show (V c main_v6_0 : Spec.A2 50000 256) (((cfg2.win 0).blk t).view.emb j) = _
    refine congrArg _ (funext fun a => Fin.ext ?_)
    match a with
    | ⟨0, _⟩ => show win2_0.index t (0 : Fin 2) * 2000 + 1 * (j 0).val = _; rw [hrow]; omega
    | ⟨1, _⟩ => show win2_0.index t (1 : Fin 2) * 256 + 1 * (j 1).val = _; rw [hcol]; omega
  -- each one-row array is read at its one row, at the same column
  have e1 : iblk2 V c 1 t (ix2 (0 : Fin 1) (j 1))
      = (V c main_v15 : Spec.A2 1 256) (ix2 (0 : Fin 1) ((((cfg2.win 5).blk t).view.emb j) 1)) := by
    show (V c main_v15 : Spec.A2 1 256) (((cfg2.win 1).blk t).view.emb (ix2 (0 : Fin 1) (j 1))) = _
    refine congrArg _ (funext fun a => Fin.ext ?_)
    match a with
    | ⟨0, _⟩ => show win2_1.index t (0 : Fin 2) * 1 + 1 * 0 = 0; omega
    | ⟨1, _⟩ => show win2_1.index t (1 : Fin 2) * 256 + 1 * (j 1).val = _; rw [hcol]; omega
  have e2 : iblk2 V c 2 t (ix2 (0 : Fin 1) (j 1))
      = (V c main_v16 : Spec.A2 1 256) (ix2 (0 : Fin 1) ((((cfg2.win 5).blk t).view.emb j) 1)) := by
    show (V c main_v16 : Spec.A2 1 256) (((cfg2.win 2).blk t).view.emb (ix2 (0 : Fin 1) (j 1))) = _
    refine congrArg _ (funext fun a => Fin.ext ?_)
    match a with
    | ⟨0, _⟩ => show win2_2.index t (0 : Fin 2) * 1 + 1 * 0 = 0; omega
    | ⟨1, _⟩ => show win2_2.index t (1 : Fin 2) * 256 + 1 * (j 1).val = _; rw [hcol]; omega
  have e3 : iblk2 V c 3 t (ix2 (0 : Fin 1) (j 1))
      = (V c main_v17 : Spec.A2 1 256) (ix2 (0 : Fin 1) ((((cfg2.win 5).blk t).view.emb j) 1)) := by
    show (V c main_v17 : Spec.A2 1 256) (((cfg2.win 3).blk t).view.emb (ix2 (0 : Fin 1) (j 1))) = _
    refine congrArg _ (funext fun a => Fin.ext ?_)
    match a with
    | ⟨0, _⟩ => show win2_3.index t (0 : Fin 2) * 1 + 1 * 0 = 0; omega
    | ⟨1, _⟩ => show win2_3.index t (1 : Fin 2) * 256 + 1 * (j 1).val = _; rw [hcol]; omega
  have e4 : iblk2 V c 4 t (ix2 (0 : Fin 1) (j 1))
      = (V c main_v18 : Spec.A2 1 256) (ix2 (0 : Fin 1) ((((cfg2.win 5).blk t).view.emb j) 1)) := by
    show (V c main_v18 : Spec.A2 1 256) (((cfg2.win 4).blk t).view.emb (ix2 (0 : Fin 1) (j 1))) = _
    refine congrArg _ (funext fun a => Fin.ext ?_)
    match a with
    | ⟨0, _⟩ => show win2_4.index t (0 : Fin 2) * 1 + 1 * 0 = 0; omega
    | ⟨1, _⟩ => show win2_4.index t (1 : Fin 2) * 256 + 1 * (j 1).val = _; rw [hcol]; omega
  rw [e0, e1, e2, e3, e4]
  rfl

/-- An index of the result array is in point `t`'s block exactly when each coordinate lies in the block's range on its
    axis: 2000 rows from row `2000 ·` the block's row index, all 256 columns. -/
theorem mem_block (t : Fin cfg2.N) (i : S50000x256.Idx) :
    i ∈ ((cfg2.win 5).blk t).view.set
      ↔ ∀ a : Fin 2, win2_5.index t a * S2000x256.size a ≤ (i a).val
          ∧ (i a).val < win2_5.index t a * S2000x256.size a + S2000x256.size a := by
  show i ∈ ((View.whole main_v19).slice (win2_5.rect t)).set ↔ _
  rw [View.set_slice_whole, Rect.mem_set_unit]
  exact Iff.rfl

/-- Every index of the result array lies in a block that is written back: row `n` is in the block of point `n / 2000`. -/
theorem covered (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  have hN : cfg2.N = 25 := N_2
  obtain ⟨t, ht⟩ : ∃ t : Fin cfg2.N, t.val = (i 0).val / 2000 := ⟨⟨(i 0).val / 2000, by omega⟩, rfl⟩
  obtain ⟨-, -, -, -, -, -, -, -, -, -, f50, f51⟩ := block_indices t
  refine ⟨t, flush2_5 t, ?_⟩
  rw [mem_block]
  intro a
  match a with
  | ⟨0, _⟩ =>
    show win2_5.index t (0 : Fin 2) * 2000 ≤ (i 0).val ∧ (i 0).val < win2_5.index t (0 : Fin 2) * 2000 + 2000
    omega
  | ⟨1, _⟩ =>
    show win2_5.index t (1 : Fin 2) * 256 ≤ (i 1).val ∧ (i 1).val < win2_5.index t (1 : Fin 2) * 256 + 256
    omega

/-- The result array after the launch is the whole result array: every point writes its block of it, and the blocks
    cover it. -/
theorem result_array (c : Dev nD) : (dat2 (F := Ideal) V c).arrAt 5 cfg2.N = result V c :=
  (dat2 (F := Ideal) V c).arrAt_eq_of_cover 5 (result V c) (fun t _ => block_written V c t) covered

/-- After the third launch the result array holds every activation normalised by the mean and variance rows it was
    given, scaled and shifted. -/
theorem out_array (c : Dev nD) (n : Fin 50000) (h : Fin 256) :
    ((dat2 (F := Ideal) V c).arrAt 5 cfg2.N : Spec.A2 50000 256) (ix2 n h)
      = Spec.norm (fun n' h' => (V c main_v6_0 : Spec.A2 50000 256) (ix2 n' h'))
          (fun h' => (V c main_v15 : Spec.A2 1 256) (ix2 (0 : Fin 1) h'))
          (fun h' => (V c main_v16 : Spec.A2 1 256) (ix2 (0 : Fin 1) h'))
          (fun h' => (V c main_v17 : Spec.A2 1 256) (ix2 (0 : Fin 1) h'))
          (fun h' => (V c main_v18 : Spec.A2 1 256) (ix2 (0 : Fin 1) h')) n h := by
  exact congrFun (result_array V c) (ix2 n h)

end Cert.KernelIdeal.Region2

end
-- ==== Proof.HostGlueA.lean ====
import proofs.«175477_j41162966565588_1_alg».proof.Proof.Gen.KernelIdeal.Frame
import proofs.«175477_j41162966565588_1_alg».proof.Proof.Spec
import proofs.«175477_j41162966565588_1_alg».proof.Proof.LibDenseT
import Idealize.ShloMosaic.Lib.Pipeline.Value
import Idealize.ShloMosaic.Lib.ValueLayout
import Idealize.ShloMosaic.Lib.Tactic
import Idealize.ShloMosaic.Lib.StableHlo.Run

set_option maxRecDepth 16384

noncomputable section

namespace Cert.KernelIdeal.GlueA

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! What the first two launches find in the buffers they read: the arguments as launched, the two bias rows re-laid as
    one-row arrays, and the messages accumulated from the first launch's edge array. -/

/-! ## Buffers no host operation of a stretch writes keep their contents across it -/

/-- The first stretch (one reshape into the bias row of the first launch) leaves every other buffer alone. -/
theorem W1_of_ne (c : Dev nD) (r : Ref sig .tc) (h : r ≠ main_v0) :
    W1 (F := Ideal) m ρ c (Proc.devRef .tc r) = m ((c : Thread nD τ).loc r) :=
  calc W1 (F := Ideal) m ρ c (Proc.devRef .tc r)
    _ = W0 m ρ c (Proc.devRef .tc r) := StableHlo.after_of_forall_not_mem (b := Proc.devRef .tc r) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne h))
    _ = m ((c : Thread nD τ).loc r) := rfl

theorem entry0_w (c : Dev nD) : V1 (F := Ideal) m ρ c main_arg1 = m ((c : Thread nD τ).loc main_arg1) :=
  W1_of_ne m ρ c main_arg1 (by decide)

theorem entry0_Wb (c : Dev nD) : V1 (F := Ideal) m ρ c main_arg5 = m ((c : Thread nD τ).loc main_arg5) :=
  W1_of_ne m ρ c main_arg5 (by decide)

/-- The first launch's arrays are the two it reads whole, its bias row and its output; every other buffer leaves the
    launch as it entered. -/
theorem W2_of_ne_launch (c : Dev nD) (r : Ref sig .tc) (hr : ∀ w, Pipeline.arrRef spec0 w ≠ r) (h : r ≠ main_v0) :
    W2 (F := Ideal) m ρ c (Proc.devRef .tc r) = m ((c : Thread nD τ).loc r) :=
  (W2_of_ne m ρ c r hr).trans (W1_of_ne m ρ c r h)

/-- The second stretch writes the zero scalar, its broadcast, the broadcast index array, the accumulated messages and
    the second bias row; every other buffer keeps its contents. -/
theorem W3_of_ne (c : Dev nD) (r : Ref sig .tc) (h0 : r ≠ main_cst) (h1 : r ≠ main_v2) (h2 : r ≠ main_v3)
    (h3 : r ≠ main_v4) (h4 : r ≠ main_v5) :
    W3 (F := Ideal) m ρ c (Proc.devRef .tc r) = W2 m ρ c (Proc.devRef .tc r) :=
  StableHlo.after_of_forall_not_mem (b := Proc.devRef .tc r) _ _ (List.forall_iff_forall_mem.mp (by
    simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h0, StableHlo.devRef_ne_of_ne h1, StableHlo.devRef_ne_of_ne h2,
      StableHlo.devRef_ne_of_ne h3, StableHlo.devRef_ne_of_ne h4⟩))

theorem entry1_x (c : Dev nD) : V3 (F := Ideal) m ρ c main_arg0 = m ((c : Thread nD τ).loc main_arg0) :=
  (W3_of_ne m ρ c main_arg0 (by decide) (by decide) (by decide) (by decide) (by decide)).trans
    (W2_of_ne_launch m ρ c main_arg0 (by decide) (by decide))

theorem entry1_Wa (c : Dev nD) : V3 (F := Ideal) m ρ c main_arg3 = m ((c : Thread nD τ).loc main_arg3) :=
  (W3_of_ne m ρ c main_arg3 (by decide) (by decide) (by decide) (by decide) (by decide)).trans
    (W2_of_ne_launch m ρ c main_arg3 (by decide) (by decide))

/-- The index argument reaches the second stretch as launched. -/
theorem W2_idx (c : Dev nD) : W2 (F := Ideal) m ρ c (Proc.devRef .tc main_arg2) = m ((c : Thread nD τ).loc main_arg2) :=
  W2_of_ne_launch m ρ c main_arg2 (by decide) (by decide)

/-- The second bias argument reaches the second stretch as launched. -/
theorem W2_bias (c : Dev nD) : W2 (F := Ideal) m ρ c (Proc.devRef .tc main_arg4) = m ((c : Thread nD τ).loc main_arg4) :=
  W2_of_ne_launch m ρ c main_arg4 (by decide) (by decide)

/-! ## Buffers a host operation wrote: the operation's function of its operands' contents -/

theorem entry0_bias (c : Dev nD) (h : Fin 256) :
    (V1 (F := Ideal) m ρ c main_v0 : Spec.A2 1 256) (ix2 (0 : Fin 1) h) = m ((c : Thread nD τ).loc main_arg6) (ix1 h) := by
  -- the bias row is the bias argument re-laid with a leading unit axis
  have e : (V1 (F := Ideal) m ρ c main_v0 : Spec.A2 1 256)
      = shapeCast S1x256 (m ((c : Thread nD τ).loc main_arg6) : S256.Idx → EReal) shapeCasts_S256_S1x256 := by
    show StableHlo.after hostOps0 (W0 m ρ c) (Proc.devRef .tc main_v0) = _
    after_results
    rfl
  rw [e]
  exact shapeCast_a_1a_apply _ _ 0 h

theorem entry1_bias (c : Dev nD) (h : Fin 256) :
    (V3 (F := Ideal) m ρ c main_v5 : Spec.A2 1 256) (ix2 (0 : Fin 1) h) = m ((c : Thread nD τ).loc main_arg4) (ix1 h) := by
  -- the bias row is the bias argument, as the first launch left it, re-laid with a leading unit axis
  have e : (V3 (F := Ideal) m ρ c main_v5 : Spec.A2 1 256)
      = shapeCast S1x256 (W2 m ρ c (Proc.devRef .tc main_arg4) : S256.Idx → EReal) shapeCasts_S256_S1x256 := by
    show StableHlo.after hostOps1 (W2 m ρ c) (Proc.devRef .tc main_v5) = _
    after_results
    rfl
  rw [e, W2_bias]
  exact shapeCast_a_1a_apply _ _ 0 h

theorem entry1_agg (c : Dev nD) :
    V3 (F := Ideal) m ρ c main_v4
      = Host.scatterAdd scatter_S50000x256_S800000x1_S800000x256_1_0_0_1
          (broadcastInDim S50000x256 ![] bcast_S_S50000x256 (constant (F := Ideal) S_ .f32 0x00000000#32))
          (broadcastInDim S800000x1 ![0] bcast_S800000_S800000x1_0 (m ((c : Thread nD τ).loc main_arg2)))
          ((dat0 (F := Ideal) (V1 m ρ) c).arrAt 3 cfg0.N) := by
  -- the first launch's output array, as the launch leaves it
  have e1 : W2 (F := Ideal) m ρ c (Proc.devRef .tc main_v1) = (dat0 (F := Ideal) (V1 m ρ) c).arrAt 3 cfg0.N :=
    W2_arr m ρ c 3
  show StableHlo.after hostOps1 (W2 m ρ c) (Proc.devRef .tc main_v4) = _
  after_results
  rw [e1, W2_idx]

end Cert.KernelIdeal.GlueA

end
-- ==== Proof.HostGlueB.lean ====
import proofs.«175477_j41162966565588_1_alg».proof.Proof.Gen.KernelIdeal.Frame
import proofs.«175477_j41162966565588_1_alg».proof.Proof.Spec
import proofs.«175477_j41162966565588_1_alg».proof.Proof.LibDenseT
import Idealize.ShloMosaic.Lib.Pipeline.Value
import Idealize.ShloMosaic.Lib.ValueLayout
import Idealize.ShloMosaic.Lib.Tactic
import Idealize.ShloMosaic.Lib.StableHlo.Run

set_option maxRecDepth 16384

noncomputable section

namespace Cert.KernelIdeal.GlueB

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! What the third launch finds in the buffers it reads, and where the result array ends: the activations the second
    launch wrote; the mean row and the variance row the host formed from the two accumulators; the scale and shift rows
    re-laid as one-row arrays. -/

/-- The buffer named in the goal is the result of none of the fourteen host operations between the second and the third
    launch: each operation writes one buffer, and that buffer is another. -/
local macro "host2_leaves" : tactic =>
  `(tactic| (
    refine List.forall_iff_forall_mem.mp ?_
    simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! The host arithmetic between the second and the third launch, read at one column. A one-row array is cut to a vector
    (column h of the vector is entry (0, h) of the array), divided entrywise by the node count spread over all columns,
    and laid out as a one-row array again (entry (0, h) of the result is column h of the vector). -/

/-- The node count spread over the 256 columns reads the count in every column. -/
theorem cntRow_apply (i : S256.Idx) :
    broadcastInDim S256 ![] bcast_S_S256 (constant (F := Ideal) S_ .f32 0x47435000#32) i = Spec.cnt := by
  rw [broadcastInDim_apply ![] bcast_S_S256 _ i ix0 (fun a => a.elim0), constant_apply]

/-- Column h of a one-row array cut to a vector and divided by the count is entry (0, h) divided by the count. -/
theorem divRow_apply (a : FVec Ideal S1x256 .f32) (h : Fin 256) :
    Host.divf (fun i => shapeCast S256 a shapeCasts_S1x256_S256 i)
        (broadcastInDim S256 ![] bcast_S_S256 (constant (F := Ideal) S_ .f32 0x47435000#32)) (ix1 h)
      = Ideal.div (a (ix2 (0 : Fin 1) h)) Spec.cnt := by
  show Ideal.div (shapeCast S256 a shapeCasts_S1x256_S256 (ix1 h))
      (broadcastInDim S256 ![] bcast_S_S256 (constant (F := Ideal) S_ .f32 0x47435000#32) (ix1 h)) = _
  rw [shapeCast_1a_a_apply, cntRow_apply]

/-- The mean row: entry (0, h) is the first accumulator's entry (0, h) over the count. -/
theorem meanRow_apply (a : FVec Ideal S1x256 .f32) (h : Fin 256) :
    shapeCast S1x256 (Host.divf (fun i => shapeCast S256 a shapeCasts_S1x256_S256 i)
        (broadcastInDim S256 ![] bcast_S_S256 (constant (F := Ideal) S_ .f32 0x47435000#32)))
        shapeCasts_S256_S1x256 (ix2 (0 : Fin 1) h)
      = Ideal.div (a (ix2 (0 : Fin 1) h)) Spec.cnt := by
  rw [shapeCast_a_1a_apply, divRow_apply]

/-- The variance row: entry (0, h) is the second accumulator's entry over the count, less the square of the mean. -/
theorem varRow_apply (a b : FVec Ideal S1x256 .f32) (h : Fin 256) :
    shapeCast S1x256
        (subf
          (Host.divf (fun i => shapeCast S256 b shapeCasts_S1x256_S256 i)
            (broadcastInDim S256 ![] bcast_S_S256 (constant (F := Ideal) S_ .f32 0x47435000#32)))
          (mulf
            (Host.divf (fun i => shapeCast S256 a shapeCasts_S1x256_S256 i)
              (broadcastInDim S256 ![] bcast_S_S256 (constant (F := Ideal) S_ .f32 0x47435000#32)))
            (Host.divf (fun i => shapeCast S256 a shapeCasts_S1x256_S256 i)
              (broadcastInDim S256 ![] bcast_S_S256 (constant (F := Ideal) S_ .f32 0x47435000#32)))))
        shapeCasts_S256_S1x256 (ix2 (0 : Fin 1) h)
      = Ideal.div (b (ix2 (0 : Fin 1) h)) Spec.cnt
        - Ideal.div (a (ix2 (0 : Fin 1) h)) Spec.cnt * Ideal.div (a (ix2 (0 : Fin 1) h)) Spec.cnt := by
  rw [shapeCast_a_1a_apply, subf_apply, mulf_apply, divRow_apply, divRow_apply]

/-! The scale and the shift vectors are inputs no launch and no host operation writes: up to the third launch they hold
    what they held at the start. -/

theorem W4_scale (c : Dev nD) :
    W4 (F := Ideal) m ρ c (Proc.devRef .tc main_arg7) = m ((c : Thread nD τ).loc main_arg7) :=
  calc W4 (F := Ideal) m ρ c (Proc.devRef .tc main_arg7)
    _ = W5 m ρ c (Proc.devRef .tc main_arg7) :=
          (StableHlo.after_of_forall_not_mem (b := Proc.devRef .tc main_arg7) _ _ (by host2_leaves)).symm
    _ = W6 m ρ c (Proc.devRef .tc main_arg7) := (W6_of_ne m ρ c main_arg7 (by decide)).symm
    _ = m ((c : Thread nD τ).loc main_arg7) := W6_main_arg7 m ρ c

theorem W4_shift (c : Dev nD) :
    W4 (F := Ideal) m ρ c (Proc.devRef .tc main_arg8) = m ((c : Thread nD τ).loc main_arg8) :=
  calc W4 (F := Ideal) m ρ c (Proc.devRef .tc main_arg8)
    _ = W5 m ρ c (Proc.devRef .tc main_arg8) :=
          (StableHlo.after_of_forall_not_mem (b := Proc.devRef .tc main_arg8) _ _ (by host2_leaves)).symm
    _ = W6 m ρ c (Proc.devRef .tc main_arg8) := (W6_of_ne m ρ c main_arg8 (by decide)).symm
    _ = m ((c : Thread nD τ).loc main_arg8) := W6_main_arg8 m ρ c

/-- The activations: no host operation touches them, so the third launch reads what the second launch left. -/
theorem entry2_act (c : Dev nD) :
    V5 (F := Ideal) m ρ c main_v6_0 = (dat1 (F := Ideal) (V3 m ρ) c).arrAt 4 cfg1.N :=
  calc W5 (F := Ideal) m ρ c (Proc.devRef .tc main_v6_0)
    _ = W4 m ρ c (Proc.devRef .tc main_v6_0) :=
          StableHlo.after_of_forall_not_mem (b := Proc.devRef .tc main_v6_0) _ _ (by host2_leaves)
    _ = (dat1 (F := Ideal) (V3 m ρ) c).arrAt 4 cfg1.N := W4_arr m ρ c 4

/-- The mean row: the first accumulator over the node count, column by column. -/
theorem entry2_mean (c : Dev nD) (h : Fin 256) :
    (V5 (F := Ideal) m ρ c main_v15 : Spec.A2 1 256) (ix2 (0 : Fin 1) h)
      = Ideal.div (((dat1 (F := Ideal) (V3 m ρ) c).arrAt 5 cfg1.N : Spec.A2 1 256) (ix2 (0 : Fin 1) h)) Spec.cnt := by
  have e : (V5 (F := Ideal) m ρ c main_v15 : FVec Ideal S1x256 .f32)
      = fun i => shapeCast S1x256
          (Host.divf (fun i => shapeCast S256 (W4 (F := Ideal) m ρ c (Proc.devRef .tc main_v6_1) : FVec Ideal S1x256 .f32) shapeCasts_S1x256_S256 i)
            (broadcastInDim S256 ![] bcast_S_S256 (constant (F := Ideal) S_ .f32 0x47435000#32)))
          shapeCasts_S256_S1x256 i := by
    show StableHlo.after (hostOps2 (F := Ideal)) (W4 m ρ c) (Proc.devRef .tc main_v15) = _
    after_results
    rfl
  have h5 : (W4 (F := Ideal) m ρ c (Proc.devRef .tc main_v6_1) : FVec Ideal S1x256 .f32)
      = ((dat1 (F := Ideal) (V3 m ρ) c).arrAt 5 cfg1.N : Spec.A2 1 256) := W4_arr m ρ c 5
  calc (V5 (F := Ideal) m ρ c main_v15 : Spec.A2 1 256) (ix2 (0 : Fin 1) h)
    _ = _ := congrFun e (ix2 (0 : Fin 1) h)
    _ = Ideal.div ((W4 (F := Ideal) m ρ c (Proc.devRef .tc main_v6_1) : FVec Ideal S1x256 .f32) (ix2 (0 : Fin 1) h)) Spec.cnt :=
          meanRow_apply _ h
    _ = _ := by rw [h5]

/-- The variance row: the second accumulator over the node count, less the square of the mean, column by column. -/
theorem entry2_var (c : Dev nD) (h : Fin 256) :
    (V5 (F := Ideal) m ρ c main_v16 : Spec.A2 1 256) (ix2 (0 : Fin 1) h)
      = Ideal.div (((dat1 (F := Ideal) (V3 m ρ) c).arrAt 6 cfg1.N : Spec.A2 1 256) (ix2 (0 : Fin 1) h)) Spec.cnt
        - Ideal.div (((dat1 (F := Ideal) (V3 m ρ) c).arrAt 5 cfg1.N : Spec.A2 1 256) (ix2 (0 : Fin 1) h)) Spec.cnt
          * Ideal.div (((dat1 (F := Ideal) (V3 m ρ) c).arrAt 5 cfg1.N : Spec.A2 1 256) (ix2 (0 : Fin 1) h)) Spec.cnt := by
  have e : (V5 (F := Ideal) m ρ c main_v16 : FVec Ideal S1x256 .f32)
      = fun i => shapeCast S1x256
          (subf
            (Host.divf (fun i => shapeCast S256 (W4 (F := Ideal) m ρ c (Proc.devRef .tc main_v6_2) : FVec Ideal S1x256 .f32) shapeCasts_S1x256_S256 i)
              (broadcastInDim S256 ![] bcast_S_S256 (constant (F := Ideal) S_ .f32 0x47435000#32)))
            (mulf
              (Host.divf (fun i => shapeCast S256 (W4 (F := Ideal) m ρ c (Proc.devRef .tc main_v6_1) : FVec Ideal S1x256 .f32) shapeCasts_S1x256_S256 i)
                (broadcastInDim S256 ![] bcast_S_S256 (constant (F := Ideal) S_ .f32 0x47435000#32)))
              (Host.divf (fun i => shapeCast S256 (W4 (F := Ideal) m ρ c (Proc.devRef .tc main_v6_1) : FVec Ideal S1x256 .f32) shapeCasts_S1x256_S256 i)
                (broadcastInDim S256 ![] bcast_S_S256 (constant (F := Ideal) S_ .f32 0x47435000#32)))))
          shapeCasts_S256_S1x256 i := by
    show StableHlo.after (hostOps2 (F := Ideal)) (W4 m ρ c) (Proc.devRef .tc main_v16) = _
    after_results
    rfl
  have h5 : (W4 (F := Ideal) m ρ c (Proc.devRef .tc main_v6_1) : FVec Ideal S1x256 .f32)
      = ((dat1 (F := Ideal) (V3 m ρ) c).arrAt 5 cfg1.N : Spec.A2 1 256) := W4_arr m ρ c 5
  have h6 : (W4 (F := Ideal) m ρ c (Proc.devRef .tc main_v6_2) : FVec Ideal S1x256 .f32)
      = ((dat1 (F := Ideal) (V3 m ρ) c).arrAt 6 cfg1.N : Spec.A2 1 256) := W4_arr m ρ c 6
  calc (V5 (F := Ideal) m ρ c main_v16 : Spec.A2 1 256) (ix2 (0 : Fin 1) h)
    _ = _ := congrFun e (ix2 (0 : Fin 1) h)
    _ = Ideal.div ((W4 (F := Ideal) m ρ c (Proc.devRef .tc main_v6_2) : FVec Ideal S1x256 .f32) (ix2 (0 : Fin 1) h)) Spec.cnt
        - Ideal.div ((W4 (F := Ideal) m ρ c (Proc.devRef .tc main_v6_1) : FVec Ideal S1x256 .f32) (ix2 (0 : Fin 1) h)) Spec.cnt
          * Ideal.div ((W4 (F := Ideal) m ρ c (Proc.devRef .tc main_v6_1) : FVec Ideal S1x256 .f32) (ix2 (0 : Fin 1) h)) Spec.cnt :=
          varRow_apply _ _ h
    _ = _ := by rw [h5, h6]

/-- The scale row: the scale vector laid out as one row. -/
theorem entry2_scale (c : Dev nD) (h : Fin 256) :
    (V5 (F := Ideal) m ρ c main_v17 : Spec.A2 1 256) (ix2 (0 : Fin 1) h) = m ((c : Thread nD τ).loc main_arg7) (ix1 h) := by
  have e : (V5 (F := Ideal) m ρ c main_v17 : FVec Ideal S1x256 .f32)
      = fun i => shapeCast S1x256 (W4 (F := Ideal) m ρ c (Proc.devRef .tc main_arg7) : FVec Ideal S256 .f32) shapeCasts_S256_S1x256 i := by
    show StableHlo.after (hostOps2 (F := Ideal)) (W4 m ρ c) (Proc.devRef .tc main_v17) = _
    after_results
    rfl
  calc (V5 (F := Ideal) m ρ c main_v17 : Spec.A2 1 256) (ix2 (0 : Fin 1) h)
    _ = _ := congrFun e (ix2 (0 : Fin 1) h)
    _ = (W4 (F := Ideal) m ρ c (Proc.devRef .tc main_arg7) : FVec Ideal S256 .f32) (ix1 h) :=
          shapeCast_a_1a_apply _ shapeCasts_S256_S1x256 (0 : Fin 1) h
    _ = _ := by rw [W4_scale]

/-- The shift row: the shift vector laid out as one row. -/
theorem entry2_shift (c : Dev nD) (h : Fin 256) :
    (V5 (F := Ideal) m ρ c main_v18 : Spec.A2 1 256) (ix2 (0 : Fin 1) h) = m ((c : Thread nD τ).loc main_arg8) (ix1 h) := by
  have e : (V5 (F := Ideal) m ρ c main_v18 : FVec Ideal S1x256 .f32)
      = fun i => shapeCast S1x256 (W4 (F := Ideal) m ρ c (Proc.devRef .tc main_arg8) : FVec Ideal S256 .f32) shapeCasts_S256_S1x256 i := by
    show StableHlo.after (hostOps2 (F := Ideal)) (W4 m ρ c) (Proc.devRef .tc main_v18) = _
    after_results
    rfl
  calc (V5 (F := Ideal) m ρ c main_v18 : Spec.A2 1 256) (ix2 (0 : Fin 1) h)
    _ = _ := congrFun e (ix2 (0 : Fin 1) h)
    _ = (W4 (F := Ideal) m ρ c (Proc.devRef .tc main_arg8) : FVec Ideal S256 .f32) (ix1 h) :=
          shapeCast_a_1a_apply _ shapeCasts_S256_S1x256 (0 : Fin 1) h
    _ = _ := by rw [W4_shift]

/-- The result array is the sixth array of the third launch: after it, it holds what that launch's blocks left. -/
theorem result_buffer (c : Dev nD) :
    W6 (F := Ideal) m ρ c (Proc.devRef .tc main_v19) = (dat2 (F := Ideal) (V5 m ρ) c).arrAt 5 cfg2.N :=
  W6_arr m ρ c 5

end Cert.KernelIdeal.GlueB

end
-- ==== Proof.KernelValue.lean ====
/-
  The kernel program's result, read through its three launches and the host operations between them.

  Launch one leaves every edge's projected row; the host adds the rows into the node rows their index words name;
  launch two leaves every node's activation and the column sums of the activations and of their squares; the host forms
  the mean row and the variance row (mean of squares minus square of the mean); launch three normalises, scales and
  shifts. Each step is read at the buffers the step before left, so the result array is the specification's result over
  the launch contents of the nine arguments.
-/
import proofs.«175477_j41162966565588_1_alg».proof.Proof.KernelRun
import proofs.«175477_j41162966565588_1_alg».proof.Proof.Region0
import proofs.«175477_j41162966565588_1_alg».proof.Proof.Region1Relu
import proofs.«175477_j41162966565588_1_alg».proof.Proof.Region1Sums
import proofs.«175477_j41162966565588_1_alg».proof.Proof.Region2
import proofs.«175477_j41162966565588_1_alg».proof.Proof.HostGlueA
import proofs.«175477_j41162966565588_1_alg».proof.Proof.HostGlueB
import proofs.«175477_j41162966565588_1_alg».proof.Proof.Spec

set_option maxRecDepth 16384

noncomputable section

namespace Cert.KernelIdeal.Value

open Cert.KernelIdeal Cert.KernelIdeal.Gen
open Idealize.ShloMosaic Idealize.ShloMosaic.TcCoe Idealize.SL.Sem Idealize.ShloMosaic.ValueIdx
open Idealize.ShloMosaic.Pipeline (Dat)

/-- The kernel program's activations as the specification's: the edge rows of the arguments, accumulated into node rows on
    top of the zero array by the program's own scatter, then projected, biased and cut off. -/
def acts (x0 : FVec Ideal S50000x256 .f32) (x1 : FVec Ideal S800000x128 .f32) (x2 : IVec S800000 32) (x3 : FVec Ideal S256x256 .f32)
    (x4 : FVec Ideal S256 .f32) (x5 : FVec Ideal S256x128 .f32) (x6 : FVec Ideal S256 .f32) : Fin 50000 → Fin 256 → EReal :=
  Spec.node x0 x3 (fun h' => x4 (ix1 h'))
    (Spec.agg scatter_S50000x256_S800000x1_S800000x256_1_0_0_1
      (broadcastInDim S50000x256 ![] bcast_S_S50000x256 (constant (F := Ideal) S_ .f32 0x00000000#32))
      (broadcastInDim S800000x1 ![0] bcast_S800000_S800000x1_0 x2)
      (Spec.edge x1 x5 (fun h' => x6 (ix1 h'))))

variable (m : (ℓ : Loc nD τ sig) → Buf (Elt Ideal) ℓ) (ρ : Dev nD → PrngReg)

/-- The activations over the launch contents of the arguments. -/
abbrev actsOf (c : Dev nD) : Fin 50000 → Fin 256 → EReal :=
  acts (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The result array the kernel program ends with. -/
def result (c : Dev nD) : Buf (Elt Ideal) ((c : Thread nD τ).loc main_v19) :=
  fun j => Spec.outOfSquares (actsOf m c) (fun h' => m ((c : Thread nD τ).loc main_arg7) (ix1 h'))
    (fun h' => m ((c : Thread nD τ).loc main_arg8) (ix1 h')) (j 0) (j 1)

/-- After launch one the edge array is the specification's edge rows of the arguments. -/
theorem edges (c : Dev nD) :
    ((dat0 (F := Ideal) (V1 m ρ) c).arrAt 3 cfg0.N : Spec.A2 800000 256)
      = fun j => Spec.edge (m ((c : Thread nD τ).loc main_arg1)) (m ((c : Thread nD τ).loc main_arg5))
          (fun h' => m ((c : Thread nD τ).loc main_arg6) (ix1 h')) (j 0) (j 1) := by
  funext j
  obtain ⟨e, h, rfl⟩ : ∃ (e : Fin 800000) (h : Fin 256), j = ix2 e h := ⟨j 0, j 1, eq_ix2 j⟩
  rw [Region0.edge_array (V1 m ρ) c e h, GlueA.entry0_w, GlueA.entry0_Wb,
    show (fun h' => (V1 (F := Ideal) m ρ c main_v0 : Spec.A2 1 256) (ix2 (0 : Fin 1) h'))
      = fun h' => m ((c : Thread nD τ).loc main_arg6) (ix1 h') from funext fun h' => GlueA.entry0_bias m ρ c h']
  rfl

/-- Launch two finds the accumulated messages of those edge rows. -/
theorem messages (c : Dev nD) :
    (V3 (F := Ideal) m ρ c main_v4 : Spec.A2 50000 256)
      = Spec.agg scatter_S50000x256_S800000x1_S800000x256_1_0_0_1
          (broadcastInDim S50000x256 ![] bcast_S_S50000x256 (constant (F := Ideal) S_ .f32 0x00000000#32))
          (broadcastInDim S800000x1 ![0] bcast_S800000_S800000x1_0 (m ((c : Thread nD τ).loc main_arg2)))
          (Spec.edge (m ((c : Thread nD τ).loc main_arg1)) (m ((c : Thread nD τ).loc main_arg5))
            (fun h' => m ((c : Thread nD τ).loc main_arg6) (ix1 h'))) := by
  rw [GlueA.entry1_agg, edges m ρ c]
  rfl

/-- The specification's activations over what launch two finds are the activations over the arguments. -/
theorem node_entry (c : Dev nD) :
    Spec.node (V3 (F := Ideal) m ρ c main_arg0) (V3 (F := Ideal) m ρ c main_arg3)
        (fun h' => (V3 (F := Ideal) m ρ c main_v5 : Spec.A2 1 256) (ix2 (0 : Fin 1) h')) (V3 (F := Ideal) m ρ c main_v4)
      = actsOf m c := by
  rw [GlueA.entry1_x, GlueA.entry1_Wa, messages m ρ c,
    show (fun h' => (V3 (F := Ideal) m ρ c main_v5 : Spec.A2 1 256) (ix2 (0 : Fin 1) h'))
      = fun h' => m ((c : Thread nD τ).loc main_arg4) (ix1 h') from funext fun h' => GlueA.entry1_bias m ρ c h']
  rfl

/-- After launch two: the activation array, and the two accumulators. -/
theorem activations (c : Dev nD) (n : Fin 50000) (h : Fin 256) :
    ((dat1 (F := Ideal) (V3 m ρ) c).arrAt 4 cfg1.N : Spec.A2 50000 256) (ix2 n h) = actsOf m c n h := by
  rw [Region1Relu.relu_array (V3 m ρ) c n h, node_entry m ρ c]

theorem sums (c : Dev nD) (h : Fin 256) :
    ((dat1 (F := Ideal) (V3 m ρ) c).arrAt 5 cfg1.N : Spec.A2 1 256) (ix2 (0 : Fin 1) h) = Spec.colSum (actsOf m c) h := by
  rw [Region1Sums.sum_array (V3 m ρ) c h, node_entry m ρ c]

theorem sumsqs (c : Dev nD) (h : Fin 256) :
    ((dat1 (F := Ideal) (V3 m ρ) c).arrAt 6 cfg1.N : Spec.A2 1 256) (ix2 (0 : Fin 1) h) = Spec.colSumSq (actsOf m c) h := by
  rw [Region1Sums.sumsq_array (V3 m ρ) c h, node_entry m ρ c]

/-- The result buffer ends at the specification's result over the arguments. -/
theorem result_eq (c : Dev nD) : W6 (F := Ideal) m ρ c (Proc.devRef .tc main_v19) = result m c := by
  rw [GlueB.result_buffer]
  funext j
  obtain ⟨n, h, rfl⟩ : ∃ (n : Fin 50000) (h : Fin 256), j = ix2 n h := ⟨j 0, j 1, eq_ix2 j⟩
  have hact : (fun n' h' => (V5 (F := Ideal) m ρ c main_v6_0 : Spec.A2 50000 256) (ix2 n' h')) = actsOf m c :=
    funext fun n' => funext fun h' => by rw [GlueB.entry2_act]; exact activations m ρ c n' h'
  have hmean : (fun h' => (V5 (F := Ideal) m ρ c main_v15 : Spec.A2 1 256) (ix2 (0 : Fin 1) h')) = Spec.mean (actsOf m c) :=
    funext fun h' => by rw [GlueB.entry2_mean, sums m ρ c h']; rfl
  have hvar : (fun h' => (V5 (F := Ideal) m ρ c main_v16 : Spec.A2 1 256) (ix2 (0 : Fin 1) h')) = Spec.varOfSquares (actsOf m c) :=
    funext fun h' => by rw [GlueB.entry2_var, sums m ρ c h', sumsqs m ρ c h']; rfl
  have hg : (fun h' => (V5 (F := Ideal) m ρ c main_v17 : Spec.A2 1 256) (ix2 (0 : Fin 1) h'))
      = fun h' => m ((c : Thread nD τ).loc main_arg7) (ix1 h') := funext fun h' => GlueB.entry2_scale m ρ c h'
  have hb : (fun h' => (V5 (F := Ideal) m ρ c main_v18 : Spec.A2 1 256) (ix2 (0 : Fin 1) h'))
      = fun h' => m ((c : Thread nD τ).loc main_arg8) (ix1 h') := funext fun h' => GlueB.entry2_shift m ρ c h'
  show ((dat2 (F := Ideal) (V5 m ρ) c).arrAt 5 cfg2.N : Spec.A2 50000 256) (ix2 n h) = _
  rw [Region2.out_array (V5 m ρ) c n h, hact, hmean, hvar, hg, hb]
  rfl

/-- Every weakly fair execution of the kernel program ends with the result array at the specification's result and the
    arguments as launched. -/
theorem run : θ_run defs (onTc (τ := τ) (main (F := Ideal))) ⟨m, fun _ => 0, ρ⟩ (fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (run_result (F := Ideal) m ρ)

end Cert.KernelIdeal.Value

end
-- ==== Proof.RefValue.lean ====
import proofs.«175477_j41162966565588_1_alg».proof.Proof.Gen.ReferenceIdeal.Run
import proofs.«175477_j41162966565588_1_alg».proof.Proof.Gen.ReferenceIdeal.Read
import proofs.«175477_j41162966565588_1_alg».proof.Proof.Spec
import proofs.«175477_j41162966565588_1_alg».proof.Proof.LibDenseT
import Idealize.ShloMosaic.Lib.ValueLayout

set_option maxRecDepth 16384

noncomputable section

namespace Cert.ReferenceIdeal.RefValue

open Cert.ReferenceIdeal Cert.ReferenceIdeal.Gen
open Idealize.ShloMosaic Idealize.ShloMosaic.TcCoe Idealize.SL.Sem Idealize.ShloMosaic.ValueIdx

/-- The reference's activations, as the specification's: the edge rows of the arguments, accumulated into node rows on top
    of the zero array by the reference's own scatter, then projected, biased and cut off. -/
def acts (x0 : FVec Ideal S50000x256 .f32) (x1 : FVec Ideal S800000x128 .f32) (x2 : IVec S800000 32) (x3 : FVec Ideal S256x256 .f32)
    (x4 : FVec Ideal S256 .f32) (x5 : FVec Ideal S256x128 .f32) (x6 : FVec Ideal S256 .f32) : Fin 50000 → Fin 256 → EReal :=
  Spec.node x0 x3 (fun h' => x4 (ix1 h'))
    (Spec.agg scatter_S50000x256_S800000x1_S800000x256_1_0_0_1
      (broadcastInDim S50000x256 ![] bcast_S_S50000x256 (constant (F := Ideal) S_ .f32 0x00000000#32))
      (broadcastInDim S800000x1 ![0] bcast_S800000_S800000x1_0 x2)
      (Spec.edge x1 x5 (fun h' => x6 (ix1 h'))))

/-! ## The index maps of the layout operations, on indices given by coordinates -/

section Indices
variable (e : Fin 800000) (n : Fin 50000) (h : Fin 256)

/-- The edge product reads the edge's row of the features at the contraction index … -/
theorem lidx0 (k : Fin 128) : Read.lidx_main_v0 (ix2 e h) k = ix2 e k :=
  funext fun a => by match a with | ⟨0, _⟩ => rfl | ⟨1, _⟩ => rfl
/-- … and the column's row of the weights. -/
theorem ridx0 (k : Fin 128) : Read.ridx_main_v0 (ix2 e h) k = ix2 h k :=
  funext fun a => by match a with | ⟨0, _⟩ => rfl | ⟨1, _⟩ => rfl
/-- The edge bias, spread over the rows, is read at the column. -/
theorem idx1_2 : Read.idx_main_v1 (Read.idx_main_v2 (ix2 e h)) = ix1 h :=
  funext fun a => by match a with | ⟨0, _⟩ => rfl
/-- The node product reads the node's row of the features at the contraction index … -/
theorem lidx7 (k : Fin 256) : Read.lidx_main_v7 (ix2 n h) k = ix2 n k :=
  funext fun a => by match a with | ⟨0, _⟩ => rfl | ⟨1, _⟩ => rfl
/-- … and the column's row of the weights. -/
theorem ridx7 (k : Fin 256) : Read.ridx_main_v7 (ix2 n h) k = ix2 h k :=
  funext fun a => by match a with | ⟨0, _⟩ => rfl | ⟨1, _⟩ => rfl
/-- The node bias, spread over the rows, is read at the column. -/
theorem idx9_10 : Read.idx_main_v9 (Read.idx_main_v10 (ix2 n h)) = ix1 h :=
  funext fun a => by match a with | ⟨0, _⟩ => rfl
/-- The column sum of the activations runs over the rows of the column. -/
theorem idx13 (k : Fin 50000) : Read.idx_main_v13 (ix1 h) k = ix2 k h :=
  funext fun a => by match a with | ⟨0, _⟩ => rfl | ⟨1, _⟩ => rfl
/-- The mean, spread over the rows, is read at the column (for the deviations that are squared) … -/
theorem idx16_17 : Read.idx_main_v16 (Read.idx_main_v17 (ix2 n h)) = ix1 h :=
  funext fun a => by match a with | ⟨0, _⟩ => rfl
/-- The column sum of the squared deviations runs over the rows of the column. -/
theorem idx20 (k : Fin 50000) : Read.idx_main_v20 (ix1 h) k = ix2 k h :=
  funext fun a => by match a with | ⟨0, _⟩ => rfl | ⟨1, _⟩ => rfl
/-- … and again for the deviations that are scaled. -/
theorem idx23_24 : Read.idx_main_v23 (Read.idx_main_v24 (ix2 n h)) = ix1 h :=
  funext fun a => by match a with | ⟨0, _⟩ => rfl
/-- The inverse deviation, spread over the rows, is read at the column. -/
theorem idx29_30 : Read.idx_main_v29 (Read.idx_main_v30 (ix2 n h)) = ix1 h :=
  funext fun a => by match a with | ⟨0, _⟩ => rfl
/-- The scale, spread over the rows, is read at the column. -/
theorem idx32_33 : Read.idx_main_v32 (Read.idx_main_v33 (ix2 n h)) = ix1 h :=
  funext fun a => by match a with | ⟨0, _⟩ => rfl
/-- The shift, spread over the rows, is read at the column. -/
theorem idx35_36 : Read.idx_main_v35 (Read.idx_main_v36 (ix2 n h)) = ix1 h :=
  funext fun a => by match a with | ⟨0, _⟩ => rfl

end Indices

/-! ## The stages -/

section Stages
variable (x0 : FVec Ideal S50000x256 .f32) (x1 : FVec Ideal S800000x128 .f32) (x2 : IVec S800000 32) (x3 : FVec Ideal S256x256 .f32)
  (x4 : FVec Ideal S256 .f32) (x5 : FVec Ideal S256x128 .f32) (x6 x7 x8 : FVec Ideal S256 .f32)

/-- The projected edge rows, entry by entry: the product's sum over the 128 features plus the bias of the column. -/
theorem edge_apply (e : Fin 800000) (h : Fin 256) :
    Read.val_main_v3 (F := Ideal) x1 x5 x6 (ix2 e h) = Spec.edge x1 x5 (fun h' => x6 (ix1 h')) e h := by
  rw [Read.val_main_v3_apply, Read.val_main_v0_apply, Read.val_main_v2_apply, Read.val_main_v1_apply]
  simp only [lidx0, ridx0, idx1_2, Ideal.addf_def]
  unfold Spec.edge
  rfl

/-- The projected edge rows as the function of the index that the scatter takes as its updates. -/
theorem edge_fun :
    Read.val_main_v3 (F := Ideal) x1 x5 x6 = fun j => Spec.edge x1 x5 (fun h' => x6 (ix1 h')) (j 0) (j 1) := by
  refine funext fun (j : (⟨2, ![800000, 256]⟩ : Shape).Idx) => ?_
  exact (congrArg (Read.val_main_v3 (F := Ideal) x1 x5 x6) (eq_ix2 j)).trans (edge_apply x1 x5 x6 (j 0) (j 1))

/-- The messages: the reference's scatter is, by definition, the specification's accumulation of the edge rows on top of
    the zero array at the index column. -/
theorem agg_eq :
    Read.val_main_v6 (F := Ideal) x1 x2 x5 x6
      = Spec.agg scatter_S50000x256_S800000x1_S800000x256_1_0_0_1
          (broadcastInDim S50000x256 ![] bcast_S_S50000x256 (constant (F := Ideal) S_ .f32 0x00000000#32))
          (broadcastInDim S800000x1 ![0] bcast_S800000_S800000x1_0 x2)
          (Spec.edge x1 x5 (fun h' => x6 (ix1 h'))) := by
  unfold Read.val_main_v6 Spec.agg Read.val_main_v4 Read.val_main_v5 Read.val_main_cst
  rw [edge_fun]

/-- The activations: messages plus projection plus bias on the reference's side, projection plus messages plus bias in
    the specification (addition commutes), cut off at the zero word, which is 0. -/
theorem acts_apply (n : Fin 50000) (h : Fin 256) :
    Read.val_main_v12 (F := Ideal) x0 x1 x2 x3 x4 x5 x6 (ix2 n h) = acts x0 x1 x2 x3 x4 x5 x6 n h := by
  rw [Read.val_main_v12_apply, Read.val_main_v11_apply, Read.val_main_v8_apply, Read.val_main_v7_apply,
    Read.val_main_v10_apply, Read.val_main_v9_apply, Read.val_main_call0_v0_apply, Read.val_main_call0_cst_apply, agg_eq]
  unfold acts Spec.node
  generalize Spec.agg scatter_S50000x256_S800000x1_S800000x256_1_0_0_1 _ _ _ = A
  simp only [lidx7, ridx7, idx9_10, Ideal.addf_def, Ideal.maximumf_def, Ideal.ofBits_def, Ideal.ofBits_zero_f32]
  rw [add_comm (A (ix2 n h)) _]

/-- The column mean: the sum over the 50000 rows on top of the zero word, divided by the count word. -/
theorem mean_apply (h : Fin 256) :
    Read.val_main_v15 (F := Ideal) x0 x1 x2 x3 x4 x5 x6 (ix1 h) = Spec.mean (acts x0 x1 x2 x3 x4 x5 x6) h := by
  rw [Read.val_main_v15_apply, Read.val_main_v13_apply, Read.val_main_v14_apply, Read.val_main_cst_1_apply,
    Read.val_main_cst_0_apply]
  unfold Spec.mean Spec.colSum
  simp only [idx13, acts_apply, Ideal.hostDivf_def, Ideal.ofBits_def, Ideal.ofBits_zero_f32, zero_add]

/-- The deviation of an activation from its column's mean. -/
theorem dev_apply (n : Fin 50000) (h : Fin 256) :
    Read.val_main_v18 (F := Ideal) x0 x1 x2 x3 x4 x5 x6 (ix2 n h)
      = acts x0 x1 x2 x3 x4 x5 x6 n h - Spec.mean (acts x0 x1 x2 x3 x4 x5 x6) h := by
  rw [Read.val_main_v18_apply, Read.val_main_v17_apply, Read.val_main_v16_apply, acts_apply, idx16_17, mean_apply]
  exact Ideal.subf_def _ _

/-- The squared deviation. -/
theorem sq_apply (n : Fin 50000) (h : Fin 256) :
    Read.val_main_v19 (F := Ideal) x0 x1 x2 x3 x4 x5 x6 (ix2 n h)
      = (acts x0 x1 x2 x3 x4 x5 x6 n h - Spec.mean (acts x0 x1 x2 x3 x4 x5 x6) h)
        * (acts x0 x1 x2 x3 x4 x5 x6 n h - Spec.mean (acts x0 x1 x2 x3 x4 x5 x6) h) := by
  rw [Read.val_main_v19_apply, dev_apply]
  exact Ideal.mulf_def _ _

/-- The column variance: the sum of the squared deviations on top of the zero word, divided by the count word. -/
theorem var_apply (h : Fin 256) :
    Read.val_main_v22 (F := Ideal) x0 x1 x2 x3 x4 x5 x6 (ix1 h) = Spec.varOfDeviations (acts x0 x1 x2 x3 x4 x5 x6) h := by
  rw [Read.val_main_v22_apply, Read.val_main_v20_apply, Read.val_main_v21_apply, Read.val_main_cst_3_apply,
    Read.val_main_cst_2_apply]
  unfold Spec.varOfDeviations
  simp only [idx20, sq_apply]
  rw [Ideal.hostDivf_def, Ideal.ofBits_def, Ideal.ofBits_def, Ideal.ofBits_zero_f32, zero_add]

end Stages

/-- The reference's result, read at (n, h): the specification's result with the variance formed from the deviations. -/
theorem result_apply (x0 : FVec Ideal S50000x256 .f32) (x1 : FVec Ideal S800000x128 .f32) (x2 : IVec S800000 32) (x3 : FVec Ideal S256x256 .f32)
    (x4 : FVec Ideal S256 .f32) (x5 : FVec Ideal S256x128 .f32) (x6 x7 x8 : FVec Ideal S256 .f32) (n : Fin 50000) (h : Fin 256) :
    (Read.val_main_v37 (F := Ideal) x0 x1 x2 x3 x4 x5 x6 x7 x8 : Spec.A2 50000 256) (ix2 n h)
      = Spec.outOfDeviations (acts x0 x1 x2 x3 x4 x5 x6) (fun h' => x7 (ix1 h')) (fun h' => x8 (ix1 h')) n h := by
  rw [Read.val_main_v37_apply, Read.val_main_v34_apply, Read.val_main_v31_apply, Read.val_main_v25_apply,
    Read.val_main_v24_apply, Read.val_main_v23_apply, Read.val_main_v30_apply, Read.val_main_v29_apply,
    Read.val_main_v28_apply, Read.val_main_v27_apply, Read.val_main_v26_apply, Read.val_main_cst_4_apply,
    Read.val_main_v33_apply, Read.val_main_v32_apply, Read.val_main_v36_apply, Read.val_main_v35_apply]
  rw [acts_apply, idx23_24, idx29_30, idx32_33, idx35_36, mean_apply, var_apply]
  unfold Spec.outOfDeviations Spec.norm
  generalize acts x0 x1 x2 x3 x4 x5 x6 n h = a
  generalize Spec.mean (acts x0 x1 x2 x3 x4 x5 x6) h = mu
  generalize Spec.varOfDeviations (acts x0 x1 x2 x3 x4 x5 x6) h = v
  rw [Ideal.addf_def, Ideal.mulf_def, Ideal.mulf_def, Ideal.subf_def, Ideal.hostUnary_rsqrt_def, Ideal.addf_def,
    Ideal.ofBits_def]

end Cert.ReferenceIdeal.RefValue

end
-- ==== Proof.LibLinear.lean ====
/-
  Finite sums of real numbers inside the extended reals, and the exchange of a weighted row sum with a matrix product.

  For rows x e (e in a finite set S) with real entries, real weights c e and a real column W:
    Σ k, (Σ e ∈ S, x e k · c e) · W k  =  Σ e ∈ S, (Σ k, x e k · W k) · c e.
  Both sides are the real number Σ e ∈ S, Σ k, x e k · c e · W k; on the extended reals the law needs every factor
  finite, because a product does not distribute over a sum that mixes infinities.
-/
import Idealize.ShloMosaic.PureOps.Ideal

noncomputable section

namespace Cert.LibLinear

/-- The extended real of a finite sum of reals is the sum of the extended reals. -/
theorem coe_sum {ι : Type} (S : Finset ι) (f : ι → ℝ) : ((∑ i ∈ S, f i : ℝ) : EReal) = ∑ i ∈ S, (f i : EReal) := by
  classical
  refine Finset.induction_on S ?_ ?_
  · simp
  · intro a s ha ih
    rw [Finset.sum_insert ha, Finset.sum_insert ha, EReal.coe_add, ih]

/-- A finite sum of extended reals that are all real is real. -/
theorem sum_real {ι : Type} (S : Finset ι) (f : ι → EReal) (hf : ∀ i ∈ S, ∃ r : ℝ, f i = (r : EReal)) :
    ∃ r : ℝ, ∑ i ∈ S, f i = (r : EReal) := by
  refine ⟨∑ i ∈ S, (f i).toReal, ?_⟩
  rw [coe_sum]
  refine Finset.sum_congr rfl (fun i hi => ?_)
  obtain ⟨r, hr⟩ := hf i hi
  rw [hr, EReal.toReal_coe]

/-- The exchange law. -/
theorem exchange {E K : Type} [Fintype K] (S : Finset E) (x : E → K → EReal) (cw : E → EReal) (W : K → EReal)
    (hx : ∀ e k, ∃ r : ℝ, x e k = (r : EReal)) (hc : ∀ e, ∃ r : ℝ, cw e = (r : EReal)) (hW : ∀ k, ∃ r : ℝ, W k = (r : EReal)) :
    ∑ k : K, (∑ e ∈ S, x e k * cw e) * W k = ∑ e ∈ S, (∑ k : K, x e k * W k) * cw e := by
  -- real witnesses for every entry
  choose xr hxr using hx
  choose cr hcr using hc
  choose Wr hWr using hW
  -- the left side is the extended real of a real double sum
  have hL : ∑ k : K, (∑ e ∈ S, x e k * cw e) * W k
      = ((∑ k : K, (∑ e ∈ S, xr e k * cr e) * Wr k : ℝ) : EReal) := by
    rw [coe_sum]
    refine Finset.sum_congr rfl (fun k _ => ?_)
    rw [EReal.coe_mul, coe_sum, hWr]
    congr 1
    refine Finset.sum_congr rfl (fun e _ => ?_)
    rw [EReal.coe_mul, hxr, hcr]
  -- so is the right side
  have hR : ∑ e ∈ S, (∑ k : K, x e k * W k) * cw e
      = ((∑ e ∈ S, (∑ k : K, xr e k * Wr k) * cr e : ℝ) : EReal) := by
    rw [coe_sum]
    refine Finset.sum_congr rfl (fun e _ => ?_)
    rw [EReal.coe_mul, coe_sum, hcr]
    congr 1
    refine Finset.sum_congr rfl (fun k _ => ?_)
    rw [EReal.coe_mul, hxr, hWr]
  rw [hL, hR]
  congr 1
  -- over the reals: distribute, swap the two sums, and compare term by term
  simp only [Finset.sum_mul]
  rw [Finset.sum_comm]
  refine Finset.sum_congr rfl (fun e _ => Finset.sum_congr rfl (fun k _ => ?_))
  ring

end Cert.LibLinear

end
-- ==== Proof.LibRows.lean ====
/-
  Row gathers and accumulating row scatters read at an index.

  A table of N rows of width C is read, or accumulated into, at rows named by a column of n start indices
  (an [n × 1] array of words). Reading: result row p is the table's row at start index p, read signed and clamped
  into [0, N − 1]. Accumulating: update row e lands on the operand row its start index names, read signed and NOT
  clamped, and is dropped when that is no row of the operand; entry (r, c) of the result is the operand's entry plus the
  sum of the entries (e, c) of the update rows e that land on r.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibRows

open Idealize.ShloMosaic Idealize.ShloMosaic.ValueIdx Idealize.ShloMosaic.StableHlo.Predicate

/-- The table row a start index names when it is READ: the word read signed, clamped into [0, N − 1]. -/
def rowOf {N n w : ℕ} (hN : 0 < N) (idx : IVec ⟨2, ![n, 1]⟩ w) (p : Fin n) : Fin N :=
  ⟨min (idx (ixP p)).toInt.toNat (N - 1), by omega⟩

/-- A row gather read at (p, q): the table at (row of start index p, q). The five hypotheses are the printed
    dimension numbers, each closed by `rfl` at a use. -/
theorem gather_rows {α : Type} {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (hN : 0 < N) (p : Fin n) (q : Fin C) :
    Host.gather d x idx (ix2 p q) = x (ix2 (rowOf hN idx p) q) := by
  unfold Host.gather
  congr 1
  funext a
  apply Fin.ext
  have hnb : ∀ a : Fin 2, a ∉ d.operandBatchingDims := fun a => by rw [hob]; exact List.not_mem_nil
  -- the result's batch axes are axis 0 alone, its offset axes axis 1 alone
  have hbd : ∀ X ∈ d.batchDims, X = (0 : Fin 2) := by
    intro X hX
    have : d.batchDims = [(0 : Fin 2)] := by unfold GatherDims.batchDims; rw [hoff]; rfl
    rw [this] at hX; exact List.mem_singleton.mp hX
  have hod : ∀ X ∈ d.offsetDims, X = (1 : Fin 2) := by
    intro X hX; rw [hoff] at hX; exact List.mem_singleton.mp hX
  have e0 : ∀ X : Fin 2, X = 0 → ((ix2 p q : (⟨2, ![n, C]⟩ : Shape).Idx) X).val = p.val := by rintro _ rfl; rfl
  have e1 : ∀ X : Fin 2, X = 1 → ((ix2 p q : (⟨2, ![n, C]⟩ : Shape).Idx) X).val = q.val := by rintro _ rfl; rfl
  match a with
  | ⟨0, _⟩ =>
    -- axis 0 is collapsed and start-indexed: its slice has size 1, so the start is clamped into [0, N − 1]
    have hsl : d.sliceSizes 0 = 1 := d.slice_collapsed 0 (by rw [hcoll]; exact List.mem_singleton.mpr rfl)
    have hk : (0 : Fin 2) ∉ d.sKept := by rw [GatherDims.mem_sKept, hcoll]; simp
    have hm : (0 : Fin 2) ∈ d.startIndexMap := by rw [hsim]; exact List.mem_singleton.mpr rfl
    show d.start (ix2 p q) idx 0 + d.batchCoord (ix2 p q) 0 + d.offCoord (ix2 p q) 0 = min (idx (ixP p)).toInt.toNat (N - 1)
    rw [GatherDims.batchCoord_eq_zero _ _ _ (hnb 0), GatherDims.offCoord_eq_zero _ _ _ hk]
    unfold GatherDims.start
    rw [dif_pos hm]
    show min _ (N - d.sliceSizes 0) = _
    rw [hsl]
    congr 3
    congr 1
    funext b
    apply Fin.ext
    match b with
    | ⟨0, _⟩ =>
      unfold GatherDims.siIdx
      rw [dif_neg (by rw [hivd]; exact Nat.zero_ne_one)]
      unfold GatherDims.siCoord
      simp only [Fin.val_cast]
      exact e0 _ (hbd _ (List.getElem_mem _))
    | ⟨1, _⟩ =>
      unfold GatherDims.siIdx
      rw [dif_pos (by rw [hivd])]
      show List.idxOf (0 : Fin 2) d.startIndexMap = 0
      rw [hsim]; simp
  | ⟨1, _⟩ =>
    -- axis 1 is the one offset axis: no start, and the offset coordinate is the result's column
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hnb 1)]
    unfold GatherDims.start GatherDims.offCoord
    rw [dif_neg hm, dif_pos hk]
    simp only [Nat.zero_add, Nat.add_zero]
    exact e1 _ (hod _ (List.getElem_mem _))

/-- Where update entry (e, c) of an accumulating row scatter lands: on (r, c') exactly when start index e, read signed,
    is r and the columns agree. -/
theorem scatter_rows_resultIdx {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (c : Fin C) (r : Fin N) (c' : Fin C) :
    d.resultIdx? (ix2 e c) idx = some (ix2 r c') ↔ (idx (ixP e)).toInt = (r.val : ℤ) ∧ c = c' := by
  -- the update's scatter axes are axis 0 alone, its window axes axis 1 alone
  have hus : ∀ X ∈ d.uScatter, X = (0 : Fin 2) := by
    intro X hX
    have : d.uScatter = [(0 : Fin 2)] := by unfold ScatterDims.uScatter; rw [huw]; rfl
    rw [this] at hX; exact List.mem_singleton.mp hX
  have huwd : ∀ X ∈ d.updateWindowDims, X = (1 : Fin 2) := by
    intro X hX; rw [huw] at hX; exact List.mem_singleton.mp hX
  have e0 : ∀ X : Fin 2, X = 0 → ((ix2 e c : (⟨2, ![n, C]⟩ : Shape).Idx) X).val = e.val := by rintro _ rfl; rfl
  have e1 : ∀ X : Fin 2, X = 1 → ((ix2 e c : (⟨2, ![n, C]⟩ : Shape).Idx) X).val = c.val := by rintro _ rfl; rfl
  have hmem_sKept : ∀ a : Fin 2, a ∈ d.sKept ↔ a ∉ d.insertedWindowDims := fun a => by
    simp [ScatterDims.sKept, Shape.kept, List.mem_filter, List.mem_finRange]
  -- the start of the window: the index word, read signed, on axis 0; nothing on axis 1
  have hs0 : d.start (ix2 e c) idx 0 = (idx (ixP e)).toInt := by
    have hm : (0 : Fin 2) ∈ d.scatterDimsToOperandDims := by rw [hsd]; exact List.mem_singleton.mpr rfl
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _ (hus _ (List.getElem_mem _))
    | ⟨1, _⟩ =>
      unfold ScatterDims.siIdx
      rw [dif_pos (by rw [hivd])]
      show List.idxOf (0 : Fin 2) d.scatterDimsToOperandDims = 0
      rw [hsd]; simp
  have hs1 : d.start (ix2 e c) idx 1 = 0 := by
    have hm : (1 : Fin 2) ∉ d.scatterDimsToOperandDims := by rw [hsd]; simp
    unfold ScatterDims.start
    rw [dif_neg hm]
  -- the window coordinate: nothing on the inserted axis 0; the update's column on axis 1
  have hw0 : d.window (ix2 e c) 0 = 0 := by
    have hk : (0 : Fin 2) ∉ d.sKept := by rw [hmem_sKept, hiw]; simp
    unfold ScatterDims.window
    rw [dif_neg hk]
  have hw1 : d.window (ix2 e c) 1 = c.val := by
    have hk : (1 : Fin 2) ∈ d.sKept := by rw [hmem_sKept, hiw]; simp
    unfold ScatterDims.window
    rw [dif_pos hk]
    exact e1 _ (huwd _ (List.getElem_mem _))
  have hr := r.isLt
  have hc := c.isLt
  have hc' := c'.isLt
  unfold ScatterDims.resultIdx?
  constructor
  · intro h
    split at h
    · next hin =>
      have hf := Option.some.inj h
      have h0 := congrArg (fun f => (f 0).val) hf
      have h1 := congrArg (fun f => (f 1).val) hf
      simp only [hs0, hw0, hs1, hw1] at h0 h1
      have hin0 := (hin 0).1
      rw [hs0, hw0] at hin0
      change ((idx (ixP e)).toInt + ((0 : ℕ) : ℤ)).toNat = r.val at h0
      change ((0 : ℤ) + (c.val : ℤ)).toNat = c'.val at h1
      refine ⟨by omega, Fin.ext (by omega)⟩
    · exact absurd h (by simp)
  · rintro ⟨hi, rfl⟩
    have hin : ∀ a, 0 ≤ d.start (ix2 e c) idx a + d.window (ix2 e c) a ∧
        d.start (ix2 e c) idx a + (d.window (ix2 e c) a : ℤ) < ((⟨2, ![N, C]⟩ : Shape).size a : ℤ) := by
      intro a
      match a with
      | ⟨0, _⟩ =>
        show 0 ≤ d.start (ix2 e c) idx 0 + (d.window (ix2 e c) 0 : ℤ) ∧ d.start (ix2 e c) idx 0 + (d.window (ix2 e c) 0 : ℤ) < (N : ℤ)
        rw [hs0, hw0, hi]; omega
      | ⟨1, _⟩ =>
        show 0 ≤ d.start (ix2 e c) idx 1 + (d.window (ix2 e c) 1 : ℤ) ∧ d.start (ix2 e c) idx 1 + (d.window (ix2 e c) 1 : ℤ) < (C : ℤ)
        rw [hs1, hw1]; omega
    rw [dif_pos hin]
    congr 1
    funext a
    apply Fin.ext
    match a with
    | ⟨0, _⟩ =>
      show (d.start (ix2 e c) idx 0 + (d.window (ix2 e c) 0 : ℤ)).toNat = r.val
      rw [hs0, hw0, hi]; omega
    | ⟨1, _⟩ =>
      show (d.start (ix2 e c) idx 1 + (d.window (ix2 e c) 1 : ℤ)).toNat = c.val
      rw [hs1, hw1]; omega

/-- The accumulating row scatter at the extended reals, read at (r, c): the operand's entry plus the sum over the update
    rows that land on r of their entry in column c. -/
theorem scatterAdd_rows {φ : FTy} {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : FVec Ideal ⟨2, ![N, C]⟩ φ) (idx : IVec ⟨2, ![n, 1]⟩ w)
    (upd : FVec Ideal ⟨2, ![n, C]⟩ φ) (r : Fin N) (c : Fin C) :
    Host.scatterAdd d x idx upd (ix2 r c)
      = x (ix2 r c) + ∑ e ∈ Finset.univ.filter (fun e : Fin n => (idx (ixP e)).toInt = (r.val : ℤ)), upd (ix2 e c) := by
  show x (ix2 r c) + ∑ j ∈ Finset.univ.filter (fun j => d.resultIdx? j idx = some (ix2 r c)), upd j = _
  congr 1
  rw [Finset.sum_filter, sum_idx2, Finset.sum_filter]
  refine Finset.sum_congr rfl fun a _ => ?_
  simp only [scatter_rows_resultIdx d huw hiw hsd hivd]
  by_cases ha : (idx (ixP a)).toInt = (r.val : ℤ)
  · simp only [ha, true_and, if_true]
    rw [Finset.sum_ite_eq']
    simp
  · simp only [ha, false_and, if_false]
    exact Finset.sum_const_zero

/-- An accumulating scatter of real entries into real entries has real entries, whatever its dimension numbers and
    indices: each entry is the operand's plus a finite sum of updates. -/
theorem scatterAdd_real {φ : FTy} {s si su : Shape} {w : ℕ} (d : ScatterDims s si su) (x : FVec Ideal s φ) (idx : IVec si w)
    (upd : FVec Ideal su φ) (hx : ∀ i, ∃ r : ℝ, x i = (r : EReal)) (hu : ∀ j, ∃ r : ℝ, upd j = (r : EReal)) (i : s.Idx) :
    ∃ r : ℝ, Host.scatterAdd d x idx upd i = (r : EReal) := by
  -- a finite sum of real updates is real
  have hsum : ∀ S : Finset su.Idx, ∃ b : ℝ, ∑ j ∈ S, upd j = (b : EReal) := by
    classical
    intro S
    induction S using Finset.induction_on with
    | empty => exact ⟨0, by rw [Finset.sum_empty, EReal.coe_zero]⟩
    | insert j S hj ih =>
      obtain ⟨b, hb⟩ := ih
      obtain ⟨u, hu'⟩ := hu j
      exact ⟨u + b, by rw [Finset.sum_insert hj, hb, hu', EReal.coe_add]⟩
  obtain ⟨a, ha⟩ := hx i
  obtain ⟨b, hb⟩ := hsum (Finset.univ.filter (fun j => d.resultIdx? j idx = some i))
  refine ⟨a + b, ?_⟩
  show x i + ∑ j ∈ Finset.univ.filter (fun j => d.resultIdx? j idx = some i), upd j = _
  rw [ha, hb, EReal.coe_add]

end Cert.LibRows

end
-- ==== Proof.Variance.lean ====
import proofs.«175477_j41162966565588_1_alg».proof.Proof.Spec
import proofs.«175477_j41162966565588_1_alg».proof.Proof.LibLinear
import proofs.«175477_j41162966565588_1_alg».proof.Proof.LibRows

noncomputable section

namespace Cert.Spec

open Idealize.ShloMosaic Idealize.ShloMosaic.ValueIdx

/-- The count both programs divide by is the real number 50000: the word has sign 0, exponent 142 and trailing
    significand 0x435000, so it denotes (2^23 + 4411392) · 2^(142 − 127 − 23) = 12800000 / 256. -/
theorem cnt_eq : cnt = ((50000 : ℝ) : EReal) := by
  show Ideal.ofBits .f32 0x47435000#32 = ((50000 : ℝ) : EReal)
  simp [Ideal.ofBits, Ideal.ieee, -EReal.coe_mul]; norm_num

/-- The identity over the reals, with the sums named: for S = Σ a, Q = Σ a², c = 1/N and μ = S·c,
    once Σ (a − μ)² is expanded to Q − 2μS + Nμ² both forms of the variance are Q·c − μ². -/
theorem var_real (S Q : ℝ) :
    Q * (1 / 50000) - S * (1 / 50000) * (S * (1 / 50000))
      = (Q - 2 * (S * (1 / 50000)) * S + 50000 * (S * (1 / 50000) * (S * (1 / 50000)))) * (1 / 50000) := by
  ring

/-- The sum of squared deviations from any real m, expanded: Σ (a − m)² = Σ a² − 2m Σ a + N m². -/
theorem dev_expand (a : Fin 50000 → ℝ) (m : ℝ) :
    ∑ n : Fin 50000, (a n - m) * (a n - m)
      = (∑ n : Fin 50000, a n * a n) - 2 * m * (∑ n : Fin 50000, a n) + 50000 * (m * m) := by
  have hterm : ∀ n : Fin 50000, (a n - m) * (a n - m) = a n * a n - 2 * m * a n + m * m := fun n => by ring
  simp only [hterm, Finset.sum_sub_distrib, Finset.sum_add_distrib, ← Finset.mul_sum, Finset.sum_const,
    Finset.card_univ, Fintype.card_fin, nsmul_eq_mul, Nat.cast_ofNat]
  ring

/-- The two forms of the variance agree when every activation is a real number. -/
theorem var_eq (H : Fin 50000 → Fin 256 → EReal) (hH : ∀ n h, ∃ r : ℝ, H n h = (r : EReal)) (h : Fin 256) :
    varOfSquares H h = varOfDeviations H h := by
  -- real witnesses for the column's entries
  choose a ha using fun n => hH n h
  have hN : (50000 : ℝ) ≠ 0 := by norm_num
  -- the column sum and the column sum of squares are the extended reals of real sums
  have hS : colSum H h = ((∑ n : Fin 50000, a n : ℝ) : EReal) := by
    unfold colSum
    rw [Cert.LibLinear.coe_sum]
    exact Finset.sum_congr rfl (fun n _ => ha n)
  have hQ : colSumSq H h = ((∑ n : Fin 50000, a n * a n : ℝ) : EReal) := by
    unfold colSumSq
    rw [Cert.LibLinear.coe_sum]
    refine Finset.sum_congr rfl (fun n _ => ?_)
    rw [ha n, EReal.coe_mul]
  -- the mean is real: the sum times the reciprocal of the count
  have hμ : mean H h = (((∑ n : Fin 50000, a n) * (1 / 50000) : ℝ) : EReal) := by
    unfold mean
    rw [hS, cnt_eq, Ideal.div_coe hN, EReal.coe_mul]
  -- the sum of squared deviations is the extended real of the real one
  have hD : ∑ n : Fin 50000, (H n h - mean H h) * (H n h - mean H h)
      = ((∑ n : Fin 50000, (a n - (∑ n : Fin 50000, a n) * (1 / 50000)) * (a n - (∑ n : Fin 50000, a n) * (1 / 50000)) : ℝ) : EReal) := by
    rw [Cert.LibLinear.coe_sum]
    refine Finset.sum_congr rfl (fun n _ => ?_)
    rw [hμ, ha n]
    simp only [EReal.coe_mul, EReal.coe_sub]
  -- both sides as extended reals of real expressions
  have hL : varOfSquares H h
      = (((∑ n : Fin 50000, a n * a n) * (1 / 50000)
          - (∑ n : Fin 50000, a n) * (1 / 50000) * ((∑ n : Fin 50000, a n) * (1 / 50000)) : ℝ) : EReal) := by
    unfold varOfSquares
    rw [hμ, hQ, cnt_eq, Ideal.div_coe hN]
    simp only [EReal.coe_mul, EReal.coe_sub]
  have hR : varOfDeviations H h
      = (((∑ n : Fin 50000, (a n - (∑ n : Fin 50000, a n) * (1 / 50000)) * (a n - (∑ n : Fin 50000, a n) * (1 / 50000))) * (1 / 50000) : ℝ) : EReal) := by
    unfold varOfDeviations
    rw [hD, cnt_eq, Ideal.div_coe hN, EReal.coe_mul]
  rw [hL, hR, dev_expand, var_real]

/-- An edge row of real inputs is real. -/
theorem edge_real (w : A2 800000 128) (Wb : A2 256 128) (bb : Row) (hw : ∀ i, ∃ r : ℝ, w i = (r : EReal))
    (hWb : ∀ i, ∃ r : ℝ, Wb i = (r : EReal)) (hbb : ∀ h, ∃ r : ℝ, bb h = (r : EReal)) (e : Fin 800000) (h : Fin 256) :
    ∃ r : ℝ, edge w Wb bb e h = (r : EReal) := by
  unfold edge
  -- each product of two real entries is real, so their finite sum is
  have hs : ∃ s : ℝ, ∑ k : Fin 128, w (ix2 e k) * Wb (ix2 h k) = (s : EReal) :=
    Cert.LibLinear.sum_real Finset.univ (fun k : Fin 128 => w (ix2 e k) * Wb (ix2 h k)) (fun k _ => by
      obtain ⟨p, hp⟩ := hw (ix2 e k)
      obtain ⟨q, hq⟩ := hWb (ix2 h k)
      refine ⟨p * q, ?_⟩
      show w (ix2 e k) * Wb (ix2 h k) = ((p * q : ℝ) : EReal)
      rw [hp, hq, EReal.coe_mul])
  obtain ⟨s, hs⟩ := hs
  obtain ⟨b, hb⟩ := hbb h
  exact ⟨s + b, by rw [hs, hb, EReal.coe_add]⟩

/-- Messages accumulated from real edge rows on top of a real array are real. -/
theorem agg_real (d : ScatterDims ⟨2, ![50000, 256]⟩ ⟨2, ![800000, 1]⟩ ⟨2, ![800000, 256]⟩) (z : A2 50000 256)
    (idx : IVec ⟨2, ![800000, 1]⟩ 32) (E : Fin 800000 → Fin 256 → EReal) (hz : ∀ i, ∃ r : ℝ, z i = (r : EReal))
    (hE : ∀ e h, ∃ r : ℝ, E e h = (r : EReal)) (i : (⟨2, ![50000, 256]⟩ : Shape).Idx) :
    ∃ r : ℝ, agg d z idx E i = (r : EReal) := by
  unfold agg
  exact Cert.LibRows.scatterAdd_real d z idx (fun j => E (j 0) (j 1)) hz (fun j => hE (j 0) (j 1)) i

/-- An activation of real inputs is real. -/
theorem node_real (x : A2 50000 256) (Wa : A2 256 256) (ba : Row) (ag : A2 50000 256) (hx : ∀ i, ∃ r : ℝ, x i = (r : EReal))
    (hWa : ∀ i, ∃ r : ℝ, Wa i = (r : EReal)) (hba : ∀ h, ∃ r : ℝ, ba h = (r : EReal)) (hag : ∀ i, ∃ r : ℝ, ag i = (r : EReal))
    (n : Fin 50000) (h : Fin 256) : ∃ r : ℝ, node x Wa ba ag n h = (r : EReal) := by
  unfold node
  -- the projection is a finite sum of products of real entries
  have hs : ∃ s : ℝ, ∑ k : Fin 256, x (ix2 n k) * Wa (ix2 h k) = (s : EReal) :=
    Cert.LibLinear.sum_real Finset.univ (fun k : Fin 256 => x (ix2 n k) * Wa (ix2 h k)) (fun k _ => by
      obtain ⟨p, hp⟩ := hx (ix2 n k)
      obtain ⟨q, hq⟩ := hWa (ix2 h k)
      refine ⟨p * q, ?_⟩
      show x (ix2 n k) * Wa (ix2 h k) = ((p * q : ℝ) : EReal)
      rw [hp, hq, EReal.coe_mul])
  obtain ⟨s, hs⟩ := hs
  obtain ⟨g, hg⟩ := hag (ix2 n h)
  obtain ⟨b, hb⟩ := hba h
  -- the sum before the cut-off is the real s + g + b, and the larger of a real and zero is real
  rw [hs, hg, hb, ← EReal.coe_add, ← EReal.coe_add, ← EReal.coe_zero]
  rcases le_total (((s + g + b : ℝ) : EReal)) ((0 : ℝ) : EReal) with hle | hle
  · exact ⟨0, max_eq_right hle⟩
  · exact ⟨s + g + b, max_eq_left hle⟩

/-- So the two results agree when every activation is real. -/
theorem out_eq (H : Fin 50000 → Fin 256 → EReal) (hH : ∀ n h, ∃ r : ℝ, H n h = (r : EReal)) (g b : Row) (n : Fin 50000) (h : Fin 256) :
    outOfSquares H g b n h = outOfDeviations H g b n h := by
  unfold outOfSquares outOfDeviations norm
  rw [var_eq H hH h]

end Cert.Spec

end
-- ==== Proof.Finite.lean ====
import proofs.«175477_j41162966565588_1_alg».proof.Pre_finite_inputs
import proofs.«175477_j41162966565588_1_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Pre_finite_inputs.Finite

open Cert.Pre_finite_inputs Idealize.ShloMosaic Idealize.ShloMosaic.ValueIdx

/-- The word 0x7F800000 (sign clear, exponent all ones, fraction zero) denotes +∞. -/
theorem ofBits_inf : Ideal.ofBits .f32 0x7F800000#32 = (⊤ : EReal) := by
  simp [Ideal.ofBits, Ideal.ieee]

/-- An extended real whose absolute value max x (−x) lies strictly below +∞ is a real number:
    at ⊥ the absolute value is max ⊥ ⊤ = ⊤, at ⊤ it is ⊤, and neither is below ⊤. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  rw [Ideal.hostAbsf_def, Ideal.absf_def, Ideal.cmpf_def, Ideal.ofBits_def, ofBits_inf] at h
  induction x using EReal.rec with
  | bot => simp [Ideal.cmp] at h
  | top => simp [Ideal.cmp] at h
  | coe r => exact ⟨r, rfl⟩

/-- The rank-0 shape has one index. -/
instance : Subsingleton S_.Idx := ⟨fun a b => funext fun d => d.elim0⟩

/-- An array whose all-finite test (the and-reduction over every axis of |x| < +∞, from 1) is 1 has real entries. -/
theorem real_of_all_finite {s : Shape} {axes : List (Fin s.rank)} (hb : S_.BroadcastsInDim s (![] : Fin 0 → Fin s.rank))
    (hr : s.ReducesTo axes S_) (hu : 0 < S_.numel) (a : FVec Ideal s .f32)
    (h : Host.reduce IntOp.andi (cmpf .olt (Host.absf a) (broadcastInDim s ![] hb (constant (F := Ideal) S_ .f32 0x7F800000#32)))
      (constantI S_ 1 1#1) hr hu ix0 = 1#1) :
    ∀ i, ∃ r : ℝ, a i = (r : EReal) := by
  intro i
  have hi := Host.reduce_andi_all _ _ hr hu ix0 h i
  exact real_of_abs_lt (a i) hi

/-- Where the precondition holds, every entry of every float argument is a real number. -/
theorem inputs_real [Cert.Pre_finite_inputs.Facts] (a0 : FVec Ideal S50000x256 .f32) (a1 : FVec Ideal S800000x128 .f32) (a2 : IVec S800000 32)
    (a3 : FVec Ideal S256x256 .f32) (a4 : FVec Ideal S256 .f32) (a5 : FVec Ideal S256x128 .f32) (a6 a7 a8 : FVec Ideal S256 .f32)
    (hpre : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)) := by
  -- the scalar the precondition returns, read at its one index: a left-nested and of eight all-finite tests
  have h0 := congrFun hpre ix0
  dsimp only [fn, fn_part1, fn_part2, Idealize.ShloMosaic.andi] at h0
  -- an and of two i1 words is 1 exactly when both are
  simp only [IntOp.andi_eq_one] at h0
  obtain ⟨⟨⟨⟨⟨⟨⟨h_0, h_1⟩, h_3⟩, h_4⟩, h_5⟩, h_6⟩, h_7⟩, h_8⟩ := h0
  exact ⟨real_of_all_finite _ _ _ a0 h_0, real_of_all_finite _ _ _ a1 h_1, real_of_all_finite _ _ _ a3 h_3,
    real_of_all_finite _ _ _ a4 h_4, real_of_all_finite _ _ _ a5 h_5, real_of_all_finite _ _ _ a6 h_6,
    real_of_all_finite _ _ _ a7 h_7, real_of_all_finite _ _ _ a8 h_8⟩

end Cert.Pre_finite_inputs.Finite

end
-- ==== Proof.lean ====
/-
  A graph-network layer, computed two ways, agrees over the extended reals.

  Both programs project every edge's features, add the projected rows into the rows of the nodes the edges point at,
  project every node's features, add the received messages and a bias, cut off below at zero, and normalise each column
  over the 50000 nodes by its mean and variance before an affine map. The kernel program does the two projections and the
  normalisation block by block in three launches, accumulates the column sums of the activations and of their squares as
  it goes, and forms the variance as mean of squares minus square of the mean; the reference forms it as the mean of the
  squared deviations. Entry by entry the two activations are one function of the arguments (sums of products, the same
  accumulation, a bias, a maximum), so the two results differ only in the form of the variance, and the two forms agree
  wherever every activation is a real number — which the precondition gives: real inputs have real edge rows, real
  accumulated messages and real activations.

  The three frame claims are the generated runs; the kernel's idealization rewrote nothing.
-/
import proofs.«175477_j41162966565588_1_alg».proof.Defs
import proofs.«175477_j41162966565588_1_alg».proof.Proof.Gen.Kernel
import proofs.«175477_j41162966565588_1_alg».proof.Proof.Gen.Kernel.Frame
import proofs.«175477_j41162966565588_1_alg».proof.Proof.Gen.KernelIdeal
import proofs.«175477_j41162966565588_1_alg».proof.Proof.Gen.KernelIdeal.Frame
import proofs.«175477_j41162966565588_1_alg».proof.Proof.Gen.ReferenceIdeal
import proofs.«175477_j41162966565588_1_alg».proof.Proof.Gen.ReferenceIdeal.Run
import proofs.«175477_j41162966565588_1_alg».proof.Proof.Gen.ReferenceIdeal.Read
import proofs.«175477_j41162966565588_1_alg».proof.Proof.Gen.Pre_finite_inputs
import proofs.«175477_j41162966565588_1_alg».proof.Proof.KernelValue
import proofs.«175477_j41162966565588_1_alg».proof.Proof.RefValue
import proofs.«175477_j41162966565588_1_alg».proof.Proof.Variance
import proofs.«175477_j41162966565588_1_alg».proof.Proof.Finite
import Idealize.ShloMosaic.Adequacy
import Idealize.ShloMosaic.Init

set_option maxRecDepth 16384

noncomputable section

namespace Cert.Proof

open Idealize.ShloMosaic Idealize.SL.Sem Idealize.ShloMosaic.ValueIdx

/-- The two programs' activations are one function of the arguments: the same edge rows, accumulated by the same scatter on
    top of the same zero array, the same projection, bias and cut-off. -/
theorem acts_eq (x0 : FVec Ideal ⟨2, ![50000, 256]⟩ .f32) (x1 : FVec Ideal ⟨2, ![800000, 128]⟩ .f32) (x2 : IVec ⟨1, ![800000]⟩ 32)
    (x3 : FVec Ideal ⟨2, ![256, 256]⟩ .f32) (x4 : FVec Ideal ⟨1, ![256]⟩ .f32) (x5 : FVec Ideal ⟨2, ![256, 128]⟩ .f32)
    (x6 : FVec Ideal ⟨1, ![256]⟩ .f32) :
    Cert.KernelIdeal.Value.acts x0 x1 x2 x3 x4 x5 x6 = Cert.ReferenceIdeal.RefValue.acts x0 x1 x2 x3 x4 x5 x6 := rfl

/-- Real inputs have real activations. -/
theorem acts_real (x0 : FVec Ideal ⟨2, ![50000, 256]⟩ .f32) (x1 : FVec Ideal ⟨2, ![800000, 128]⟩ .f32) (x2 : IVec ⟨1, ![800000]⟩ 32)
    (x3 : FVec Ideal ⟨2, ![256, 256]⟩ .f32) (x4 : FVec Ideal ⟨1, ![256]⟩ .f32) (x5 : FVec Ideal ⟨2, ![256, 128]⟩ .f32)
    (x6 : FVec Ideal ⟨1, ![256]⟩ .f32)
    (h0 : ∀ i, ∃ r : ℝ, x0 i = (r : EReal)) (h1 : ∀ i, ∃ r : ℝ, x1 i = (r : EReal)) (h3 : ∀ i, ∃ r : ℝ, x3 i = (r : EReal))
    (h4 : ∀ i, ∃ r : ℝ, x4 i = (r : EReal)) (h5 : ∀ i, ∃ r : ℝ, x5 i = (r : EReal)) (h6 : ∀ i, ∃ r : ℝ, x6 i = (r : EReal))
    (n : Fin 50000) (h : Fin 256) : ∃ r : ℝ, Cert.KernelIdeal.Value.acts x0 x1 x2 x3 x4 x5 x6 n h = (r : EReal) := by
  unfold Cert.KernelIdeal.Value.acts
  refine Cert.Spec.node_real _ _ _ _ h0 h3 (fun h' => h4 _) (fun i => ?_) n h
  refine Cert.Spec.agg_real _ _ _ _ (fun i' => ⟨0, ?_⟩) (fun e h' => Cert.Spec.edge_real _ _ _ h1 h5 (fun h'' => h6 _) e h') i
  show Ideal.ofBits .f32 0x00000000#32 = ((0 : ℝ) : EReal)
  rw [Ideal.ofBits_zero_f32, EReal.coe_zero]

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with one result array: the kernel program's is the
    specification's result with the variance from the squares, the reference's the same with the variance from the
    deviations, over the same activations, which are real because the inputs are. -/
theorem algebraic : Cert.algebraic_KernelIdeal_ReferenceIdeal := by
  intro m ρ m' ρ' hpre hagree
  refine ⟨fun c => Cert.KernelIdeal.Value.result m c, Cert.KernelIdeal.Value.run m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8⟩ := hagree c
  obtain ⟨r0, r1, r3, r4, r5, r6, r7, r8⟩ := Cert.Pre_finite_inputs.Finite.inputs_real _ _ _ _ _ _ _ _ _ (hpre c)
  rw [Cert.ReferenceIdeal.Read.val_main_v37_eq, e0, e1, e2, e3, e4, e5, e6, e7, e8]
  funext j
  obtain ⟨n, h, rfl⟩ : ∃ (n : Fin 50000) (h : Fin 256), j = ix2 n h := ⟨j 0, j 1, eq_ix2 j⟩
  refine (Cert.ReferenceIdeal.RefValue.result_apply _ _ _ _ _ _ _ _ _ n h).trans ?_
  rw [← acts_eq]
  exact (Cert.Spec.out_eq _ (acts_real _ _ _ _ _ _ _ r0 r1 r3 r4 r5 r6) _ _ n h).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
